-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x384 : Shape := ⟨2, ![4096, 384]⟩
abbrev S4096x1 : Shape := ⟨2, ![4096, 1]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S2048x4096 .f32) (main_arg1 : IVec S4096x384 32) (main_arg2 : FVec F S4096x1 .f32) (main_arg3 : FVec F S4096x1 .f32) (main_arg4 : FVec F S4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x1 .f32 := Host.absf main_arg3
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S2048x4096 : Shape := ⟨2, ![2048, 4096]⟩
abbrev S4096x384 : Shape := ⟨2, ![4096, 384]⟩
abbrev S4096x1 : Shape := ⟨2, ![4096, 1]⟩
abbrev S4096 : Shape := ⟨1, ![4096]⟩
abbrev S384x4096 : Shape := ⟨2, ![384, 4096]⟩
abbrev S1x4096 : Shape := ⟨2, ![1, 4096]⟩
abbrev S384x256 : Shape := ⟨2, ![384, 256]⟩
abbrev S1x256 : Shape := ⟨2, ![1, 256]⟩
abbrev S2048x256 : Shape := ⟨2, ![2048, 256]⟩
abbrev S96x256 : Shape := ⟨2, ![96, 256]⟩
abbrev S32x3x256 : Shape := ⟨3, ![32, 3, 256]⟩
abbrev S32x1x256 : Shape := ⟨3, ![32, 1, 256]⟩
abbrev S32x256 : Shape := ⟨2, ![32, 256]⟩
abbrev S1x10x1 : Shape := ⟨3, ![1, 10, 1]⟩
abbrev S32x10x256 : Shape := ⟨3, ![32, 10, 256]⟩
abbrev S32x32x256 : Shape := ⟨3, ![32, 32, 256]⟩
abbrev S1024x256 : Shape := ⟨2, ![1024, 256]⟩
abbrev S2048x1024 : Shape := ⟨2, ![2048, 1024]⟩

abbrev nBuf : Space → Nat
  | .hbm => 11
  | .vmem => 12
  | .smem => 0
  | _ => 0

abbrev bufTy : (tb : Table) → Fin (tcTables nBuf tb) → BufTy
  | .hbm, ⟨0, _⟩ => ⟨S2048x4096, .f32⟩
  | .hbm, ⟨1, _⟩ => ⟨S4096x384, .i32⟩
  | .hbm, ⟨2, _⟩ => ⟨S4096x1, .f32⟩
  | .hbm, ⟨3, _⟩ => ⟨S4096x1, .f32⟩
  | .hbm, ⟨4, _⟩ => ⟨S4096, .f32⟩
  | .hbm, ⟨5, _⟩ => ⟨S2048x4096, .bf16⟩
  | .hbm, ⟨6, _⟩ => ⟨S384x4096, .i32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S2048x4096, .f32⟩
  | .local _ .vmem, ⟨0, _⟩ => ⟨S2048x4096, .bf16⟩
  | .local _ .vmem, ⟨1, _⟩ => ⟨S384x256, .i32⟩
  | .local _ .vmem, ⟨2, _⟩ => ⟨S384x256, .i32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S384x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  transposes_S4096x384_S384x4096_1_0 : S4096x384.Transposes [1, 0] S384x4096
  shapeCasts_S4096x1_S1x4096 : S4096x1.ShapeCasts S1x4096
  shapeCasts_S4096_S1x4096 : S4096.ShapeCasts S1x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S384x256_S96x256_0_0 : ∀ a, (![0, 0] : Fin 2 → Nat) a + S96x256.size a ≤ S384x256.size a
  h_S96x256 : 0 < S96x256.numel
  shapeCasts_S96x256_S96x256 : S96x256.ShapeCasts S96x256
  shapeCasts_S96x256_S32x3x256 : S96x256.ShapeCasts S32x3x256
  slices_S32x3x256_o0_0_0_S32x1x256 : S32x3x256.Slices ![0, 0, 0] S32x1x256
  shapeCasts_S32x1x256_S32x256 : S32x1x256.ShapeCasts S32x256
  slices_S32x3x256_o0_1_0_S32x1x256 : S32x3x256.Slices ![0, 1, 0] S32x1x256
  slices_S32x3x256_o0_2_0_S32x1x256 : S32x3x256.Slices ![0, 2, 0] S32x1x256
  iota_S1x10x1_d1_w32 : S1x10x1.Iotas .tc 32 [1]
  shapeCasts_S32x256_S32x1x256 : S32x256.ShapeCasts S32x1x256
  broadcasts_S32x1x256_S32x10x256 : S32x1x256.Broadcasts S32x10x256
  broadcasts_S1x10x1_S32x10x256 : S1x10x1.Broadcasts S32x10x256
  concatenates_S32x10x256_S32x1x256_S32x10x256_S32x1x256_S32x10x256_S32x32x256_d1 : Shape.Concatenates [S32x10x256, S32x1x256, S32x10x256, S32x1x256, S32x10x256] S32x32x256 1
  shapeCasts_S32x32x256_S1024x256 : S32x32x256.ShapeCasts S1024x256
  broadcasts_S1x256_S1024x256 : S1x256.Broadcasts S1024x256
  inb_S2048x4096_S2048x1024_0_0 : ∀ a, (![0, 0] : Fin 2 → Nat) a + S2048x1024.size a ≤ S2048x4096.size a
  h_S2048x1024 : 0 < S2048x1024.numel
  shapeCasts_S2048x1024_S2048x1024 : S2048x1024.ShapeCasts S2048x1024
  inb_S384x256_S96x256_96_0 : ∀ a, (![96, 0] : Fin 2 → Nat) a + S96x256.size a ≤ S384x256.size a
  inb_S2048x4096_S2048x1024_0_1024 : ∀ a, (![0, 1024] : Fin 2 → Nat) a + S2048x1024.size a ≤ S2048x4096.size a
  inb_S384x256_S96x256_192_0 : ∀ a, (![192, 0] : Fin 2 → Nat) a + S96x256.size a ≤ S384x256.size a
  inb_S2048x4096_S2048x1024_0_2048 : ∀ a, (![0, 2048] : Fin 2 → Nat) a + S2048x1024.size a ≤ S2048x4096.size a
  inb_S384x256_S96x256_288_0 : ∀ a, (![288, 0] : Fin 2 → Nat) a + S96x256.size a ≤ S384x256.size a
  inb_S2048x4096_S2048x1024_0_3072 : ∀ a, (![0, 3072] : Fin 2 → Nat) a + S2048x1024.size a ≤ S2048x4096.size a
  broadcasts_S1x256_S2048x256 : S1x256.Broadcasts S2048x256
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S2048x4096.size a
  hwx0_0 : ∀ i : grid0.Coords, EltTy.bits .bf16 = 32 ∨ (Rect.block (s := S2048x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S384x256.size a ≤ S384x4096.size a
  hwx0_1 : ∀ i : grid0.Coords, EltTy.bits .i32 = 32 ∨ (Rect.block (s := S384x4096) S384x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .f32 = 32 ∨ (Rect.block (s := S1x4096) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x4096.size a
  hwx0_4 : ∀ i : grid0.Coords, EltTy.bits .f32 = 32 ∨ (Rect.block (s := S1x4096) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S2048x4096.size a
  hwx0_5 : ∀ i : grid0.Coords, EltTy.bits .f32 = 32 ∨ (Rect.block (s := S2048x4096) S2048x256.size (cc0_transform_5 i) (hinb0_5 i)).WholeWords (EltTy.packing .f32)

variable [Facts₀]

def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_v0) S2048x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S384x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S4096x384 : Shape := ⟨2, ![4096, 384]⟩
abbrev S4096x1 : Shape := ⟨2, ![4096, 1]⟩
abbrev S4096 : Shape := ⟨1, ![4096]⟩
abbrev S4096x128x3 : Shape := ⟨3, ![4096, 128, 3]⟩
abbrev S4096x128x1 : Shape := ⟨3, ![4096, 128, 1]⟩
abbrev S4096x128 : Shape := ⟨2, ![4096, 128]⟩
abbrev S10 : Shape := ⟨1, ![10]⟩
abbrev S_ : Shape := ⟨0, ![]⟩
abbrev S1x1x10 : Shape := ⟨3, ![1, 1, 10]⟩
abbrev S4096x128x10 : Shape := ⟨3, ![4096, 128, 10]⟩
abbrev S4096x128x32 : Shape := ⟨3, ![4096, 128, 32]⟩
abbrev S4096x4096 : Shape := ⟨2, ![4096, 4096]⟩
abbrev S1x4096 : Shape := ⟨2, ![1, 4096]⟩

abbrev nBuf : Space → Nat
  | .hbm => 87
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x384, .i32⟩
  | .hbm, ⟨2, _⟩ => ⟨S4096x1, .f32⟩
  | .hbm, ⟨3, _⟩ => ⟨S4096x1, .f32⟩
  | .hbm, ⟨4, _⟩ => ⟨S4096, .f32⟩
  | .hbm, ⟨5, _⟩ => ⟨S4096x384, .i32⟩
  | .hbm, ⟨6, _⟩ => ⟨S4096x128x3, .i32⟩
  | .hbm, ⟨7, _⟩ => ⟨S4096x128x1, .i32⟩
  | .hbm, ⟨8, _⟩ => ⟨S4096x128, .i32⟩
  | .hbm, ⟨9, _⟩ => ⟨S4096x128x1, .i32⟩
  | .hbm, ⟨10, _⟩ => ⟨S4096x128, .i32⟩
  | .hbm, ⟨11, _⟩ => ⟨S4096x128x1, .i32⟩
  | .hbm, ⟨12, _⟩ => ⟨S4096x128, .i32⟩
  | .hbm, ⟨13, _⟩ => ⟨S10, .i32⟩
  | .hbm, ⟨14, _⟩ => ⟨S_, .i32⟩
  | .hbm, ⟨15, _⟩ => ⟨S10, .i32⟩
  | .hbm, ⟨16, _⟩ => ⟨S10, .i32⟩
  | .hbm, ⟨17, _⟩ => ⟨S4096x128x1, .i32⟩
  | .hbm, ⟨18, _⟩ => ⟨S1x1x10, .i32⟩
  | .hbm, ⟨19, _⟩ => ⟨S4096x128x10, .i32⟩
  | .hbm, ⟨20, _⟩ => ⟨S4096x128x10, .i32⟩
  | .hbm, ⟨21, _⟩ => ⟨S4096x128x10, .i32⟩
  | .hbm, ⟨22, _⟩ => ⟨S_, .i32⟩
  | .hbm, ⟨23, _⟩ => ⟨S4096x128x10, .i32⟩
  | .hbm, ⟨24, _⟩ => ⟨S4096x128x10, .i32⟩
  | .hbm, ⟨25, _⟩ => ⟨S_, .i32⟩
  | .hbm, ⟨26, _⟩ => ⟨S4096x128, .i32⟩
  | .hbm, ⟨27, _⟩ => ⟨S4096x128, .i32⟩
  | .hbm, ⟨28, _⟩ => ⟨S_, .i32⟩
  | .hbm, ⟨29, _⟩ => ⟨S4096x128, .i32⟩
  | .hbm, ⟨30, _⟩ => ⟨S4096x128, .i32⟩
  | .hbm, ⟨31, _⟩ => ⟨S_, .i32⟩
  | .hbm, ⟨32, _⟩ => ⟨S4096x128, .i32⟩
  | .hbm, ⟨33, _⟩ => ⟨S4096x128, .i32⟩
  | .hbm, ⟨34, _⟩ => ⟨S_, .i32⟩
  | .hbm, ⟨35, _⟩ => ⟨S4096x128, .i32⟩
  | .hbm, ⟨36, _⟩ => ⟨S4096x128, .i32⟩
  | .hbm, ⟨37, _⟩ => ⟨S4096x128, .i32⟩
  | .hbm, ⟨38, _⟩ => ⟨S4096x128x1, .i32⟩
  | .hbm, ⟨39, _⟩ => ⟨S4096x128x1, .i32⟩
  | .hbm, ⟨40, _⟩ => ⟨S_, .i32⟩
  | .hbm, ⟨41, _⟩ => ⟨S10, .i32⟩
  | .hbm, ⟨42, _⟩ => ⟨S10, .i32⟩
  | .hbm, ⟨43, _⟩ => ⟨S1x1x10, .i32⟩
  | .hbm, ⟨44, _⟩ => ⟨S4096x128x10, .i32⟩
  | .hbm, ⟨45, _⟩ => ⟨S4096x128x10, .i32⟩
  | .hbm, ⟨46, _⟩ => ⟨S4096x128x10, .i32⟩
  | .hbm, ⟨47, _⟩ => ⟨S_, .i32⟩
  | .hbm, ⟨48, _⟩ => ⟨S4096x128x10, .i32⟩
  | .hbm, ⟨49, _⟩ => ⟨S4096x128x10, .i32⟩
  | .hbm, ⟨50, _⟩ => ⟨S_, .i32⟩
  | .hbm, ⟨51, _⟩ => ⟨S4096x128, .i32⟩
  | .hbm, ⟨52, _⟩ => ⟨S4096x128, .i32⟩
  | .hbm, ⟨53, _⟩ => ⟨S_, .i32⟩
  | .hbm, ⟨54, _⟩ => ⟨S4096x128, .i32⟩
  | .hbm, ⟨55, _⟩ => ⟨S4096x128, .i32⟩
  | .hbm, ⟨56, _⟩ => ⟨S_, .i32⟩
  | .hbm, ⟨57, _⟩ => ⟨S4096x128, .i32⟩
  | .hbm, ⟨58, _⟩ => ⟨S4096x128, .i32⟩
  | .hbm, ⟨59, _⟩ => ⟨S_, .i32⟩
  | .hbm, ⟨60, _⟩ => ⟨S4096x128, .i32⟩
  | .hbm, ⟨61, _⟩ => ⟨S4096x128, .i32⟩
  | .hbm, ⟨62, _⟩ => ⟨S4096x128, .i32⟩
  | .hbm, ⟨63, _⟩ => ⟨S4096x128x1, .i32⟩
  | .hbm, ⟨64, _⟩ => ⟨S4096x128x1, .i32⟩
  | .hbm, ⟨65, _⟩ => ⟨S_, .i32⟩
  | .hbm, ⟨66, _⟩ => ⟨S10, .i32⟩
  | .hbm, ⟨67, _⟩ => ⟨S10, .i32⟩
  | .hbm, ⟨68, _⟩ => ⟨S1x1x10, .i32⟩
  | .hbm, ⟨69, _⟩ => ⟨S4096x128x10, .i32⟩
  | .hbm, ⟨70, _⟩ => ⟨S4096x128x10, .i32⟩
  | .hbm, ⟨71, _⟩ => ⟨S4096x128x10, .i32⟩
  | .hbm, ⟨72, _⟩ => ⟨S_, .i32⟩
  | .hbm, ⟨73, _⟩ => ⟨S4096x128x10, .i32⟩
  | .hbm, ⟨74, _⟩ => ⟨S4096x128x10, .i32⟩
  | .hbm, ⟨75, _⟩ => ⟨S4096x128x32, .i32⟩
  | .hbm, ⟨76, _⟩ => ⟨S4096x4096, .i32⟩
  | .hbm, ⟨77, _⟩ => ⟨S4096x4096, .i32⟩
  | .hbm, ⟨78, _⟩ => ⟨S4096x4096, .f32⟩
  | .hbm, ⟨79, _⟩ => ⟨S4096x4096, .f32⟩
  | .hbm, ⟨80, _⟩ => ⟨S4096x4096, .f32⟩
  | .hbm, ⟨81, _⟩ => ⟨S4096x4096, .f32⟩
  | .hbm, ⟨82, _⟩ => ⟨S4096x4096, .f32⟩
  | .hbm, ⟨83, _⟩ => ⟨S2048x4096, .f32⟩
  | .hbm, ⟨84, _⟩ => ⟨S1x4096, .f32⟩
  | .hbm, ⟨85, _⟩ => ⟨S2048x4096, .f32⟩
  | .hbm, ⟨86, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_6 : Ref sig .tc := ⟨.hbm, 47, rfl⟩
abbrev main_v35 : Ref sig .tc := ⟨.hbm, 48, rfl⟩
abbrev main_v36 : Ref sig .tc := ⟨.hbm, 49, rfl⟩
abbrev main_c_7 : Ref sig .tc := ⟨.hbm, 50, rfl⟩
abbrev main_v37 : Ref sig .tc := ⟨.hbm, 51, rfl⟩
abbrev main_v38 : Ref sig .tc := ⟨.hbm, 52, rfl⟩
abbrev main_c_8 : Ref sig .tc := ⟨.hbm, 53, rfl⟩
abbrev main_v39 : Ref sig .tc := ⟨.hbm, 54, rfl⟩
abbrev main_v40 : Ref sig .tc := ⟨.hbm, 55, rfl⟩
abbrev main_c_9 : Ref sig .tc := ⟨.hbm, 56, rfl⟩
abbrev main_v41 : Ref sig .tc := ⟨.hbm, 57, rfl⟩
abbrev main_v42 : Ref sig .tc := ⟨.hbm, 58, rfl⟩
abbrev main_c_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_11 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_12 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩

abbrev nD : Nat := 1
abbrev τ : Topo := Topo.v7x

variable {F : FTy → Type} [FloatOps F]

class Facts₀ : Prop where
  shapeCasts_S4096x384_S4096x128x3 : S4096x384.ShapeCasts S4096x128x3
  slices_S4096x128x3_S4096x128x1_0_0_0 : S4096x128x3.Slices ![0, 0, 0] S4096x128x1
  shapeCasts_S4096x128x1_S4096x128 : S4096x128x1.ShapeCasts S4096x128
  slices_S4096x128x3_S4096x128x1_0_0_1 : S4096x128x3.Slices ![0, 0, 1] S4096x128x1
  slices_S4096x128x3_S4096x128x1_0_0_2 : S4096x128x3.Slices ![0, 0, 2] S4096x128x1
  bcast_S_S10 : S_.BroadcastsInDim S10 (![] : Fin 0 → Fin S10.rank)
  bcast_S4096x128_S4096x128x1_0_1 : S4096x128.BroadcastsInDim S4096x128x1 (![0, 1] : Fin 2 → Fin S4096x128x1.rank)
  bcast_S10_S1x1x10_2 : S10.BroadcastsInDim S1x1x10 (![2] : Fin 1 → Fin S1x1x10.rank)
  bcast_S4096x128x1_S4096x128x10_0_1_2 : S4096x128x1.BroadcastsInDim S4096x128x10 (![0, 1, 2] : Fin 3 → Fin S4096x128x10.rank)
  bcast_S1x1x10_S4096x128x10_0_1_2 : S1x1x10.BroadcastsInDim S4096x128x10 (![0, 1, 2] : Fin 3 → Fin S4096x128x10.rank)
  bcast_S_S4096x128x10 : S_.BroadcastsInDim S4096x128x10 (![] : Fin 0 → Fin S4096x128x10.rank)
  bcast_S_S4096x128 : S_.BroadcastsInDim S4096x128 (![] : Fin 0 → Fin S4096x128.rank)
  concatenates_S4096x128x10_S4096x128x1_S4096x128x10_S4096x128x1_S4096x128x10_S4096x128x32_d2 : Shape.Concatenates [S4096x128x10, S4096x128x1, S4096x128x10, S4096x128x1, S4096x128x10] S4096x128x32 2
  shapeCasts_S4096x128x32_S4096x4096 : S4096x128x32.ShapeCasts S4096x4096
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  dot_S2048x4096_S4096x4096_S2048x4096_1_1_0_0_n_n_wf : DotDims.WF S2048x4096 S4096x4096 S2048x4096 [1] [1] [0] [0] [] []

variable [Facts₀]

def dot_S2048x4096_S4096x4096_S2048x4096_1_1_0_0_n_n : DotDims S2048x4096 S4096x4096 S2048x4096 where
  lhsContracting := [1]
  rhsContracting := [1]
  lhsNonContracting := [0]
  rhsNonContracting := [0]
  lhsBatch := []
  rhsBatch := []
  wf := dot_S2048x4096_S4096x4096_S2048x4096_1_1_0_0_n_n_wf

class Facts : Prop extends Facts₀ where

variable [Facts]
-- ==== Proof.KChunk.lean ====
/-
  One quarter of the kernel's body. The body accumulates, for each quarter c of the 4096 contracted coordinates, the
  product of the input's columns 1024c .. 1024c+1023 with a 1024×256 tile of dequantised weights, unpacked from 96 rows
  of the packed block: the 96 rows are 32 groups of three words, group g giving the 32 rows 32g .. 32g+31 of the tile.
  The four quarters are written out one after the other in the body and cut at different places, but each is the same
  function `step` of its 96 packed rows, the scale and zero rows, its input columns and the accumulator so far.
-/
import proofs.«425514_j83064667505244_3_alg».proof.Proof.Gen.KernelIdeal.Skeleton

noncomputable section

namespace Cert.KernelIdeal.Chunk

open Cert.KernelIdeal Cert.KernelIdeal.Gen Idealize.ShloMosaic

variable {F : FTy → Type} [FloatOps F]

/-- The 96 packed rows as 32 groups of three words. -/
def words (q : Vec F S96x256 .i32) : IVec S32x3x256 32 :=
  shapeCast S32x3x256 (shapeCast S96x256 q shapeCasts_S96x256_S96x256) shapeCasts_S96x256_S32x3x256

/-- Word 0, 1, 2 of every group. -/
def w0 (Q : IVec S32x3x256 32) : IVec S32x256 32 :=
  shapeCast S32x256 (extractStridedSlice S32x1x256 ![0, 0, 0] Q slices_S32x3x256_o0_0_0_S32x1x256) shapeCasts_S32x1x256_S32x256
def w1 (Q : IVec S32x3x256 32) : IVec S32x256 32 :=
  shapeCast S32x256 (extractStridedSlice S32x1x256 ![0, 1, 0] Q slices_S32x3x256_o0_1_0_S32x1x256) shapeCasts_S32x1x256_S32x256
def w2 (Q : IVec S32x3x256 32) : IVec S32x256 32 :=
  shapeCast S32x256 (extractStridedSlice S32x1x256 ![0, 2, 0] Q slices_S32x3x256_o0_2_0_S32x1x256) shapeCasts_S32x1x256_S32x256

/-- The ten shift amounts 0, 3, …, 27. -/
def sh0 : IVec S1x10x1 32 := muli (iota .tc S1x10x1 32 [1] iota_S1x10x1_d1_w32) (broadcast S1x10x1 3#32)

/-- Ten three-bit fields of every word of `w`, at the amounts `sh`. -/
def triV (w : IVec S32x256 32) (sh : IVec S1x10x1 32) : IVec S32x10x256 32 :=
  andi (shrui (broadcastTo S32x10x256 (shapeCast S32x1x256 w shapeCasts_S32x256_S32x1x256) broadcasts_S32x1x256_S32x10x256)
      (broadcastTo S32x10x256 sh broadcasts_S1x10x1_S32x10x256)) (broadcast S32x10x256 7#32)

/-- Value 10 of every group. -/
def m10V (a b : IVec S32x256 32) : IVec S32x1x256 32 :=
  shapeCast S32x1x256 (ori (andi (shrui a (broadcast S32x256 30#32)) (broadcast S32x256 3#32))
    (shli (andi b (broadcast S32x256 1#32)) (broadcast S32x256 2#32))) shapeCasts_S32x256_S32x1x256

/-- Value 21 of every group. -/
def m21V (b c : IVec S32x256 32) : IVec S32x1x256 32 :=
  shapeCast S32x1x256 (ori (andi (shrui b (broadcast S32x256 31#32)) (broadcast S32x256 1#32))
    (shli (andi c (broadcast S32x256 3#32)) (broadcast S32x256 1#32))) shapeCasts_S32x256_S32x1x256

/-- The 32 values of every group, side by side. -/
def catV (Q : IVec S32x3x256 32) : IVec S32x32x256 32 :=
  concatenate S32x32x256 1 [⟨S32x10x256, triV (w0 Q) sh0⟩, ⟨S32x1x256, m10V (w0 Q) (w1 Q)⟩,
    ⟨S32x10x256, triV (w1 Q) (addi sh0 (broadcast S1x10x1 1#32))⟩, ⟨S32x1x256, m21V (w1 Q) (w2 Q)⟩,
    ⟨S32x10x256, triV (w2 Q) (addi sh0 (broadcast S1x10x1 2#32))⟩] concatenates_S32x10x256_S32x1x256_S32x10x256_S32x1x256_S32x10x256_S32x32x256_d1

/-- The 1024×256 tile of dequantised weights of one quarter. -/
def tile (q : Vec F S96x256 .i32) (sc zr : FVec F S1x256 .f32) : FVec F S1024x256 .bf16 :=
  truncf .bf16 (subf (mulf (sitofp .f32 (shapeCast S1024x256 (catV (words q)) shapeCasts_S32x32x256_S1024x256))
      (broadcastTo S1024x256 sc broadcasts_S1x256_S1024x256)) (broadcastTo S1024x256 zr broadcasts_S1x256_S1024x256)) bitsLt_bf16_f32

/-- One quarter's accumulation: the accumulator plus the product of the quarter's input columns with its tile. -/
def step (q : Vec F S96x256 .i32) (sc zr : FVec F S1x256 .f32) (xc : Vec F S2048x1024 .bf16) (acc : Vec F S2048x256 .f32) :
    FVec F S2048x256 .f32 :=
  shapeCast S2048x256 (addf acc (matmul dot_S2048x1024_S1024x256_S2048x256_1_0_0_1_n_n none (shapeCast S2048x1024 xc shapeCasts_S2048x1024_S2048x1024)
    (tile q sc zr) (constant S2048x256 .f32 0x00000000#32))) shapeCasts_S2048x256_S2048x256

/-! ## The four quarters of the body are `step` -/

theorem quarter0 (q : Vec F S96x256 .i32) (sc zr : FVec F S1x256 .f32) (xc : Vec F S2048x1024 .bf16) (acc : Vec F S2048x256 .f32) :
    k0_pay14 sc zr (k0_pay8 q) (k0_pay9 q) k0_pay10 (k0_pay11 q) (k0_pay12 q) (k0_pay13 q) xc acc = step q sc zr xc acc := rfl

theorem quarter1 (q : Vec F S96x256 .i32) (sc zr : FVec F S1x256 .f32) (xc : Vec F S2048x1024 .bf16) (acc : Vec F S2048x256 .f32) :
    k0_pay26 sc zr (k0_pay20 (k0_pay16 q)) (k0_pay21 (k0_pay16 q) (k0_pay17 q)) (k0_pay22 (k0_pay17 q))
      (k0_pay23 (k0_pay15 q) (k0_pay17 q)) (k0_pay24 (k0_pay15 q)) k0_pay25 xc acc = step q sc zr xc acc := rfl

theorem quarter2 (q : Vec F S96x256 .i32) (sc zr : FVec F S1x256 .f32) (xc : Vec F S2048x1024 .bf16) (acc : Vec F S2048x256 .f32) :
    k0_pay34 sc zr (k0_pay29 q) (k0_pay30 q) k0_pay31 (k0_pay32 q) (k0_pay33 q) xc acc = step q sc zr xc acc := rfl

theorem quarter3 (q : Vec F S96x256 .i32) (sc zr : FVec F S1x256 .f32) (xc : Vec F S2048x1024 .bf16) (acc : Vec F S2048x256 .f32) :
    k0_pay1 sc zr k0_pay39 (k0_pay40 q) (k0_pay41 q) (k0_pay42 q) (k0_pay43 q) (k0_pay44 q) xc acc = step q sc zr xc acc := rfl

end Cert.KernelIdeal.Chunk

end
-- ==== Proof.LibReadBack.lean ====
/-
  A whole-buffer load after whole-buffer stores. When the last of a sequence of stores into a buffer wrote the whole
  buffer (through the whole-shape rectangle at zero offsets), a load of the whole buffer afterwards reads exactly that
  last store's value, whatever the earlier stores wrote: an accumulator that is rewritten whole, step after step, reads
  back its latest value.
-/
import Idealize.ShloMosaic.Lib.Pipeline.Value

noncomputable section

namespace Idealize.ShloMosaic.View

variable {Val : EltTy → Type} {S : Shape} {e : EltTy}

/-- A load through the whole-shape rectangle of what a LAST store through it left, whatever the earlier stores
    were, reads that store's value. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

end
-- ==== Proof.KBody.lean ====
/-
  What the body leaves in the output block. The body zeroes its accumulator, runs the four quarters' steps one after
  the other — quarter c on packed rows 96c .. 96c+95 of the packed block and on columns 1024c .. 1024c+1023 of the
  input —, each step reading back the accumulator the step before wrote whole, and stores the last accumulator plus the
  bias row.
-/
import proofs.«425514_j83064667505244_3_alg».proof.Proof.Gen.KernelIdeal.Frame
import proofs.«425514_j83064667505244_3_alg».proof.Proof.KChunk
import proofs.«425514_j83064667505244_3_alg».proof.Proof.LibReadBack

set_option maxRecDepth 16384

noncomputable section

namespace Cert.KernelIdeal.Body

open Cert.KernelIdeal Cert.KernelIdeal.Gen Cert.KernelIdeal.Chunk
open Idealize.ShloMosaic Idealize.ShloMosaic.TcCoe Idealize.ShloMosaic.Tactic
open Idealize.SL Idealize.SL.Sem

variable {F : FTy → Type} [FloatOps F]

/-- The packed rows of quarter 0, 1, 2, 3. -/
def rows0 (x1 : Vec F S384x256 .i32) : Vec F S96x256 .i32 := View.ld x1 (Rect.unit ![0, 0] S96x256.size inb_S384x256_S96x256_0_0)
def rows1 (x1 : Vec F S384x256 .i32) : Vec F S96x256 .i32 := View.ld x1 (Rect.unit ![96, 0] S96x256.size inb_S384x256_S96x256_96_0)
def rows2 (x1 : Vec F S384x256 .i32) : Vec F S96x256 .i32 := View.ld x1 (Rect.unit ![192, 0] S96x256.size inb_S384x256_S96x256_192_0)
def rows3 (x1 : Vec F S384x256 .i32) : Vec F S96x256 .i32 := View.ld x1 (Rect.unit ![288, 0] S96x256.size inb_S384x256_S96x256_288_0)

/-- The input columns of quarter 0, 1, 2, 3. -/
def cols0 (x0 : Vec F S2048x4096 .bf16) : Vec F S2048x1024 .bf16 := View.ld x0 (Rect.unit ![0, 0] S2048x1024.size inb_S2048x4096_S2048x1024_0_0)
def cols1 (x0 : Vec F S2048x4096 .bf16) : Vec F S2048x1024 .bf16 := View.ld x0 (Rect.unit ![0, 1024] S2048x1024.size inb_S2048x4096_S2048x1024_0_1024)
def cols2 (x0 : Vec F S2048x4096 .bf16) : Vec F S2048x1024 .bf16 := View.ld x0 (Rect.unit ![0, 2048] S2048x1024.size inb_S2048x4096_S2048x1024_0_2048)
def cols3 (x0 : Vec F S2048x4096 .bf16) : Vec F S2048x1024 .bf16 := View.ld x0 (Rect.unit ![0, 3072] S2048x1024.size inb_S2048x4096_S2048x1024_0_3072)

/-- The accumulator after the four quarters. -/
def accVal (x0 : Vec F S2048x4096 .bf16) (x1 : Vec F S384x256 .i32) (x2 x3 : Vec F S1x256 .f32) : FVec F S2048x256 .f32 :=
  step (rows3 x1) (k0_pay3 x2) (k0_pay4 x3) (cols3 x0)
    (step (rows2 x1) (k0_pay3 x2) (k0_pay4 x3) (cols2 x0)
      (step (rows1 x1) (k0_pay3 x2) (k0_pay4 x3) (cols1 x0)
        (step (rows0 x1) (k0_pay3 x2) (k0_pay4 x3) (cols0 x0) (k0_pay5 (F := F)))))

/-- The block the body stores: the accumulator plus the bias row. -/
def bodyVal (x0 : Vec F S2048x4096 .bf16) (x1 : Vec F S384x256 .i32) (x2 x3 x4 : Vec F S1x256 .f32) : FVec F S2048x256 .f32 :=
  k0_pay2 (accVal x0 x1 x2 x3) x4

theorem zero_offsets : (![0, 0] : Fin 2 → ℕ) = fun _ => 0 := by
  funext a; match a with | ⟨0, _⟩ => rfl | ⟨1, _⟩ => rfl

/-- What the run leaves in the output's staging block is `bodyVal` of the input blocks. -/
theorem out_eq (c : Dev nD) (i : grid0.Coords) (arg1 : Memref sig .tc .vmem S2048x4096 .bf16) (harg1 : arg1.IsWhole) (arg2 : Memref sig .tc .vmem S384x256 .i32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole)
    (x0 : Vec F S2048x4096 .bf16) (x1 : Vec F S384x256 .i32) (x2 : Vec F S1x256 .f32) (x3 : Vec F S1x256 .f32) (x4 : Vec F S1x256 .f32) :
    out0_A_5 c i arg1 harg1 arg2 harg2 arg3 harg3 arg4 harg4 arg5 harg5 arg6 harg6 arg7 harg7 x0 x1 x2 x3 x4 = bodyVal x0 x1 x2 x3 x4 := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  sl_unfold_words
  rw [View.canon_unit_zero zero_offsets]
  simp only [View.readAt_eq_ld, harg1.read_unread, harg2.read_unread, harg3.read_unread, harg4.read_unread, harg5.read_unread,
    View.ld_unit_zero (S := S1x256) zero_offsets, View.readCov_cons_unit_zero (S := S2048x256) _ zero_offsets]
  rw [quarter0, quarter1, quarter2, quarter3]
  rfl

end Cert.KernelIdeal.Body

end
-- ==== Proof.Unpack.lean ====
/-
  Three-bit unpacking. A group of 32 three-bit values is held in three 32-bit words w0, w1, w2 (96 bits): value j of
  the group is bits 3j, 3j+1, 3j+2 of the 96-bit string w0 ++ w1 ++ w2 (least significant first). Values 0..9 lie in
  w0, values 11..20 in w1 (from bit 1), values 22..31 in w2 (from bit 2); value 10 straddles w0 and w1 (two bits of
  w0, one of w1) and value 21 straddles w1 and w2 (one bit of w1, two of w2).

  Both programs extract a field by a logical shift right and a mask, the shift amount being 3p + o for the p-th
  value of a word, and assemble the two straddling values by shifts, masks and an or. Every shift amount is below 32,
  where a kernel's shift, the host's shift and the plain bit-vector shift agree.
-/
import Idealize.ShloMosaic.PureOps
import Idealize.ShloMosaic.Lib.ValueIdx

noncomputable section

namespace Cert.Unpack

open Idealize.ShloMosaic

/-- The three-bit field of `w` that starts at bit `3p + o`. -/
def tri (w : BitVec 32) (o : Nat) (p : Fin 10) : BitVec 32 := (w >>> (3 * p.val + o)) &&& 7#32

/-- Value 10 of a group: the top two bits of `w0` below the lowest bit of `w1`. -/
def mid10 (w0 w1 : BitVec 32) : BitVec 32 := ((w0 >>> 30) &&& 3#32) ||| ((w1 &&& 1#32) <<< 2)

/-- Value 21 of a group: the top bit of `w1` below the lowest two bits of `w2`. -/
def mid21 (w1 w2 : BitVec 32) : BitVec 32 := ((w1 >>> 31) &&& 1#32) ||| ((w2 &&& 3#32) <<< 1)

/-- Value `j` of the group of 32 held in the words `w0`, `w1`, `w2`. -/
def field (w0 w1 w2 : BitVec 32) (j : Fin 32) : BitVec 32 :=
  if h : j.val < 10 then tri w0 0 ⟨j.val, h⟩
  else if j.val = 10 then mid10 w0 w1
  else if h : j.val < 21 then tri w1 1 ⟨j.val - 11, by omega⟩
  else if j.val = 21 then mid21 w1 w2
  else tri w2 2 ⟨j.val - 22, by omega⟩

theorem field_lo (w0 w1 w2 : BitVec 32) (j : Fin 32) (p : Fin 10) (h : j.val = p.val) :
    field w0 w1 w2 j = tri w0 0 p := by
  unfold field
  have hp := p.isLt
  rw [dif_pos (by omega)]
  exact congrArg _ (Fin.ext h)

theorem field_10 (w0 w1 w2 : BitVec 32) (j : Fin 32) (h : j.val = 10) :
    field w0 w1 w2 j = mid10 w0 w1 := by
  unfold field
  rw [dif_neg (by omega), if_pos h]

theorem field_mid (w0 w1 w2 : BitVec 32) (j : Fin 32) (p : Fin 10) (h : j.val = 11 + p.val) :
    field w0 w1 w2 j = tri w1 1 p := by
  unfold field
  have hp := p.isLt
  rw [dif_neg (by omega), if_neg (by omega), dif_pos (by omega)]
  exact congrArg _ (Fin.ext (by show j.val - 11 = p.val; omega))

theorem field_21 (w0 w1 w2 : BitVec 32) (j : Fin 32) (h : j.val = 21) :
    field w0 w1 w2 j = mid21 w1 w2 := by
  unfold field
  rw [dif_neg (by omega), if_neg (by omega), dif_neg (by omega), if_pos h]

theorem field_hi (w0 w1 w2 : BitVec 32) (j : Fin 32) (p : Fin 10) (h : j.val = 22 + p.val) :
    field w0 w1 w2 j = tri w2 2 p := by
  unfold field
  rw [dif_neg (by omega), if_neg (by omega), dif_neg (by omega), if_neg (by omega)]
  exact congrArg _ (Fin.ext (by show j.val - 22 = p.val; omega))

/-! ## The programs' shifts and masks are the fields -/

/-- A shift right by an amount below 32, on either unit, then the mask 7, is the field at that amount. -/
theorem andi_shrui_eq_tri (u : ArithUnit) (w s : BitVec 32) (o : Nat) (p : Fin 10) (ho : o ≤ 2)
    (hs : s.toNat = 3 * p.val + o) : IntOp.andi (IntOp.shrui u w s) 7#32 = tri w o p := by
  have hp := p.isLt
  unfold IntOp.andi IntOp.shrui tri
  rw [if_pos (by omega), BitVec.ushiftRight_eq', hs]

/-- The shift amounts a kernel computes: the coordinate times three, plus the word's offset. -/
theorem amount_kernel0 (p : Fin 10) : (IntOp.muli (BitVec.ofNat 32 p.val) 3#32).toNat = 3 * p.val + 0 := by
  revert p; decide
theorem amount_kernel1 (p : Fin 10) :
    (IntOp.addi (IntOp.muli (BitVec.ofNat 32 p.val) 3#32) 1#32).toNat = 3 * p.val + 1 := by
  revert p; decide
theorem amount_kernel2 (p : Fin 10) :
    (IntOp.addi (IntOp.muli (BitVec.ofNat 32 p.val) 3#32) 2#32).toNat = 3 * p.val + 2 := by
  revert p; decide

/-- The shift amounts the host computes: three times the coordinate, plus the word's offset. -/
theorem amount_host0 (p : Fin 10) : (IntOp.muli 3#32 (BitVec.ofNat 32 p.val)).toNat = 3 * p.val + 0 := by
  revert p; decide
theorem amount_host1 (p : Fin 10) :
    (IntOp.addi (IntOp.muli 3#32 (BitVec.ofNat 32 p.val)) 1#32).toNat = 3 * p.val + 1 := by
  revert p; decide
theorem amount_host2 (p : Fin 10) :
    (IntOp.addi (IntOp.muli 3#32 (BitVec.ofNat 32 p.val)) 2#32).toNat = 3 * p.val + 2 := by
  revert p; decide

/-- Value 10 as either unit assembles it. -/
theorem ori_eq_mid10 (u : ArithUnit) (w0 w1 : BitVec 32) :
    IntOp.ori (IntOp.andi (IntOp.shrui u w0 30#32) 3#32) (IntOp.shli u (IntOp.andi w1 1#32) 2#32) = mid10 w0 w1 := by
  unfold IntOp.ori IntOp.andi IntOp.shrui IntOp.shli mid10
  rw [if_pos (by decide), if_pos (by decide)]
  rfl

/-- Value 21 as either unit assembles it. -/
theorem ori_eq_mid21 (u : ArithUnit) (w1 w2 : BitVec 32) :
    IntOp.ori (IntOp.andi (IntOp.shrui u w1 31#32) 1#32) (IntOp.shli u (IntOp.andi w2 3#32) 1#32) = mid21 w1 w2 := by
  unfold IntOp.ori IntOp.andi IntOp.shrui IntOp.shli mid21
  rw [if_pos (by decide), if_pos (by decide)]
  rfl

end Cert.Unpack

end
-- ==== Proof.LibRank3Layout.lean ====
/-
  Rank-3 stacks read at an index: the layout operations, the reductions over the last axis and the plain matrix
  product that a kernel working on a stack [a, b, c] of rows meets, each read at explicit coordinates.

  A matrix [a, b] viewed as [a, b, 1] or as [a, 1, b] keeps its entries; a stack [a, b, c] flattened to [a·b, c] puts row
  (i, j) at flat row i·b + j, and back; a column stack [a, b, 1] or a row stack [a, 1, c] broadcast to [a, b, c] repeats its
  entries along the unit axis. A sum or a maximum over the last axis of a stack, read at (i, j), is the sum or the fold of
  `max` over the entries (i, j, l). The plain product of an m×k by a k×n matrix into a zero accumulator, read at (r, h), is
  the sum over the contracted coordinate of the products of the entries. The reductions and the product are at the ideal values.
-/
import Idealize.ShloMosaic.PureOps.Ideal.Laws
import Idealize.ShloMosaic.Lib.ValueIdx
import Idealize.ShloMosaic.Lib.Pipeline.Value

noncomputable section

namespace Idealize.ShloMosaic.Rank3Layout

open Idealize.ShloMosaic Idealize.ShloMosaic.ValueIdx

variable {α : Type}

/-! ## Unit axes added to a matrix -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-! ## A stack flattened to a matrix, and back -/

/-- An `[a, b, c]` array cast to `[n, c]` reads, at `(r, l)` with `r = i·b + j`, the operand at `(i, j, l)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (l : Fin c) (r : Fin n)
    (hr : r.val = i.val * b + j.val) : shapeCast ⟨2, ![n, c]⟩ x h (ix2 r l) = x (ix3 i j l) :=
  shapeCast_apply x h _ _ (by
    rw [Shape.rowMajor_val_three, Shape.rowMajor_val_two]
    show (i.val * b + j.val) * c + l.val = r.val * c + l.val
    rw [hr])

/-- An `[n, c]` array cast to `[a, b, c]` reads, at `(i, j, l)`, the operand at `(r, l)` with `r = i·b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (l : Fin c) (r : Fin n)
    (hr : r.val = i.val * b + j.val) : shapeCast ⟨3, ![a, b, c]⟩ x h (ix3 i j l) = x (ix2 r l) :=
  shapeCast_apply x h _ _ (by
    rw [Shape.rowMajor_val_three, Shape.rowMajor_val_two]
    show r.val * c + l.val = (i.val * b + j.val) * c + l.val
    rw [hr])

/-! ## A unit axis broadcast -/

/-- An `[a, b, 1]` array broadcast to `[a, b, c]` reads, at `(i, j, l)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, l)`, the operand at `(i, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

/-! ## Reductions over the last axis, at the ideal values -/

/-- The index over `(i, j)` with `l` put on the dropped last axis is `(i, j, l)`. -/
theorem lift_last {a b c : ℕ} (h : (⟨3, ![a, b, c]⟩ : Shape).Reduces [2] ⟨2, ![a, b]⟩) (i : Fin a) (j : Fin b) (l : Fin c) :
    h.lift (ix2 i j) l = ix3 i j l := by
  funext ax; apply Fin.ext
  match ax with
  | ⟨0, _⟩ => rfl
  | ⟨1, _⟩ => rfl
  | ⟨2, _⟩ => rfl

/-- A sum over the last axis of a stack, read at `(i, j)`, is the sum of the entries `(i, j, l)`. -/
theorem multiReduction_add_last {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ l : Fin c, src (ix3 i j l) := by
  refine (Ideal.multiReduction_add_single src acc h hφ hacc (ix2 i j)).trans ?_
  show ∑ l : Fin c, src (h.lift (ix2 i j) l) = _
  exact Finset.sum_congr rfl fun l _ => congrArg src (lift_last h i j l)

/-- A maximum over the last axis of a stack, read at `(i, j)`, is the fold of `max`, from the accumulator's value, over the
    entries `(i, j, l)`. -/
theorem multiReduction_maximumf_last {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun l => src (ix3 i j l)) := by
  refine (Ideal.multiReduction_maximumf_single src acc h hφ hacc (ix2 i j)).trans ?_
  show (Finset.univ : Finset (Fin c)).fold max (Ideal.ofBits φ acc) (fun l => src (h.lift (ix2 i j) l)) = _
  exact congrArg (fun f : Fin c → EReal => (Finset.univ : Finset (Fin c)).fold max (Ideal.ofBits φ acc) f)
    (funext fun l => congrArg src (lift_last h i j l))

/-! ## The plain matrix product into a zero accumulator, at the ideal values -/

/-- A kernel's product of an m×k by a k×n matrix into the zero accumulator, read at `(r, h)`. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply,
    ← Equiv.sum_comp (contrEquiv1 (⟨[1], [0], [0], [1], [], [], w⟩ : DotDims _ _ _) k rfl rfl).symm]
  refine Finset.sum_congr rfl fun l _ => ?_
  have c2 := contrEquiv1_symm_val
    (⟨[1], [0], [0], [1], [], [], w⟩ : DotDims ⟨2, ![m, k]⟩ ⟨2, ![k, n]⟩ ⟨2, ![m, n]⟩) k rfl rfl l
  have l2 : (⟨[1], [0], [0], [1], [], [], w⟩ : DotDims ⟨2, ![m, k]⟩ ⟨2, ![k, n]⟩ ⟨2, ![m, n]⟩).lhsIdx (ix2 r h)
      ((contrEquiv1 _ k rfl rfl).symm l) = ix2 r l := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r h)
      ((contrEquiv1 _ k rfl rfl).symm l) = ix2 l h := by
    funext ax; apply Fin.ext
    match ax with
    | ⟨0, _⟩ => simp [DotDims.rhsIdx]; exact c2
    | ⟨1, _⟩ => simp [DotDims.rhsIdx]; rfl
  rw [l2, r2]

end Idealize.ShloMosaic.Rank3Layout

end
-- ==== Proof.KTile.lean ====
/-
  One quarter of the body read at an index. Group g of the quarter's 96 packed rows is rows 3g, 3g+1, 3g+2; value j of
  the group is the stored three-bit field `Unpack.field` of those three words; the tile's row 32g + j at lane l is that
  integer times the lane's scale minus the lane's zero point; and the quarter's step adds to the accumulator at (r, l)
  the sum over the quarter's 1024 coordinates of the input entry times the tile entry.
-/
import proofs.«425514_j83064667505244_3_alg».proof.Proof.KChunk
import proofs.«425514_j83064667505244_3_alg».proof.Proof.Unpack
import proofs.«425514_j83064667505244_3_alg».proof.Proof.LibRank3Layout
import Idealize.ShloMosaic.Lib.ValueLayout
import Idealize.ShloMosaic.Lib.Pipeline.Value
import Idealize.ShloMosaic.PureOps.Ideal.Laws

noncomputable section

namespace Cert.KernelIdeal.Chunk

open Cert.KernelIdeal Cert.KernelIdeal.Gen Idealize.ShloMosaic Idealize.ShloMosaic.ValueIdx
open Idealize.ShloMosaic.Rank3Layout

variable {F : FTy → Type} [FloatOps F]

/-- Packed row `3g + t`: word `t` of group `g`. -/
abbrev wrow (g : Fin 32) (t : Fin 3) : Fin 96 := ⟨g.val * 3 + t.val, by have := g.isLt; have := t.isLt; omega⟩

/-- Word `t` of group `g` is packed row `3g + t`. -/
theorem words_at (q : Vec F S96x256 .i32) (g : Fin 32) (t : Fin 3) (l : Fin 256) :
    words q (ix3 g t l) = q (ix2 (wrow g t) l) := by
  unfold words
  rw [shapeCast_self]
  exact shapeCast_nc_abc_apply q shapeCasts_S96x256_S32x3x256 g t l _ rfl

theorem w0_at (Q : IVec S32x3x256 32) (g : Fin 32) (l : Fin 256) : w0 Q (ix2 g l) = Q (ix3 g (0 : Fin 3) l) := by
  unfold w0
  refine (shapeCast_abc_nc_apply _ shapeCasts_S32x1x256_S32x256 g (0 : Fin 1) l g (by simp)).trans ?_
  exact extractStridedSlice_apply _ Q _ _ _ (fun a => match a with
    | ⟨0, _⟩ => by show g.val = 0 + g.val; omega
    | ⟨1, _⟩ => by show 0 = 0 + 0; omega
    | ⟨2, _⟩ => by show l.val = 0 + l.val; omega)

theorem w1_at (Q : IVec S32x3x256 32) (g : Fin 32) (l : Fin 256) : w1 Q (ix2 g l) = Q (ix3 g (1 : Fin 3) l) := by
  unfold w1
  refine (shapeCast_abc_nc_apply _ shapeCasts_S32x1x256_S32x256 g (0 : Fin 1) l g (by simp)).trans ?_
  exact extractStridedSlice_apply _ Q _ _ _ (fun a => match a with
    | ⟨0, _⟩ => by show g.val = 0 + g.val; omega
    | ⟨1, _⟩ => by show 1 = 1 + 0; omega
    | ⟨2, _⟩ => by show l.val = 0 + l.val; omega)

theorem w2_at (Q : IVec S32x3x256 32) (g : Fin 32) (l : Fin 256) : w2 Q (ix2 g l) = Q (ix3 g (2 : Fin 3) l) := by
  unfold w2
  refine (shapeCast_abc_nc_apply _ shapeCasts_S32x1x256_S32x256 g (0 : Fin 1) l g (by simp)).trans ?_
  exact extractStridedSlice_apply _ Q _ _ _ (fun a => match a with
    | ⟨0, _⟩ => by show g.val = 0 + g.val; omega
    | ⟨1, _⟩ => by show 2 = 2 + 0; omega
    | ⟨2, _⟩ => by show l.val = 0 + l.val; omega)

/-- The shift amounts at coordinate `p`: `3p`, and with the word's offset added. -/
theorem sh0_at (p : Fin 10) : sh0 (ix3 (0 : Fin 1) p (0 : Fin 1)) = IntOp.muli (BitVec.ofNat 32 p.val) 3#32 := by
  show IntOp.muli (iota .tc S1x10x1 32 [1] iota_S1x10x1_d1_w32 (ix3 (0 : Fin 1) p (0 : Fin 1))) 3#32 = _
  rw [iota_single_apply]

theorem sh1_at (p : Fin 10) : addi sh0 (broadcast S1x10x1 1#32) (ix3 (0 : Fin 1) p (0 : Fin 1))
    = IntOp.addi (IntOp.muli (BitVec.ofNat 32 p.val) 3#32) 1#32 := by
  show IntOp.addi (sh0 (ix3 (0 : Fin 1) p (0 : Fin 1))) 1#32 = _
  rw [sh0_at]

theorem sh2_at (p : Fin 10) : addi sh0 (broadcast S1x10x1 2#32) (ix3 (0 : Fin 1) p (0 : Fin 1))
    = IntOp.addi (IntOp.muli (BitVec.ofNat 32 p.val) 3#32) 2#32 := by
  show IntOp.addi (sh0 (ix3 (0 : Fin 1) p (0 : Fin 1))) 2#32 = _
  rw [sh0_at]

/-- The ten fields of a word, at `(g, p, l)`: the word `(g, l)` shifted by amount `p` of `sh` and masked. -/
theorem triV_at (w : IVec S32x256 32) (sh : IVec S1x10x1 32) (g : Fin 32) (p : Fin 10) (l : Fin 256) :
    triV w sh (ix3 g p l)
      = IntOp.andi (IntOp.shrui .vector (w (ix2 g l)) (sh (ix3 (0 : Fin 1) p (0 : Fin 1)))) 7#32 := by
  show IntOp.andi (IntOp.shrui .vector
      (broadcastTo S32x10x256 (shapeCast S32x1x256 w shapeCasts_S32x256_S32x1x256) broadcasts_S32x1x256_S32x10x256 (ix3 g p l))
      (broadcastTo S32x10x256 sh broadcasts_S1x10x1_S32x10x256 (ix3 g p l))) 7#32 = _
  rw [broadcastTo_a1c_abc_apply, shapeCast_ab_a1b_apply]
  congr 2
  refine broadcastTo_apply sh broadcasts_S1x10x1_S32x10x256 (ix3 g p l) (ix3 (0 : Fin 1) p (0 : Fin 1)) fun a => ?_
  match a with
  | ⟨0, _⟩ => rfl
  | ⟨1, _⟩ => rfl
  | ⟨2, _⟩ => rfl

theorem m10V_at (a b : IVec S32x256 32) (g : Fin 32) (u : Fin 1) (l : Fin 256) :
    m10V a b (ix3 g u l) = Cert.Unpack.mid10 (a (ix2 g l)) (b (ix2 g l)) := by
  unfold m10V
  rw [shapeCast_ab_a1b_apply]
  exact Cert.Unpack.ori_eq_mid10 .vector _ _

theorem m21V_at (b c : IVec S32x256 32) (g : Fin 32) (u : Fin 1) (l : Fin 256) :
    m21V b c (ix3 g u l) = Cert.Unpack.mid21 (b (ix2 g l)) (c (ix2 g l)) := by
  unfold m21V
  rw [shapeCast_ab_a1b_apply]
  exact Cert.Unpack.ori_eq_mid21 .vector _ _

end Cert.KernelIdeal.Chunk

end
-- ==== Proof.KStep.lean ====
/-
  One quarter's tile and step at an index. Row 32g + j of the tile, at lane l, is the stored three-bit value j of group g
  (a real number, exactly) times the lane's scale minus the lane's zero point; the step adds to the accumulator at (r, l)
  the sum over the quarter's 1024 coordinates k of the input entry (r, k) times the tile entry (k, l).
-/
import proofs.«425514_j83064667505244_3_alg».proof.Proof.KTile

noncomputable section

namespace Cert.KernelIdeal.Chunk

open Cert.KernelIdeal Cert.KernelIdeal.Gen Idealize.ShloMosaic Idealize.ShloMosaic.ValueIdx
open Idealize.ShloMosaic.Rank3Layout

/-- The five pieces set side by side: ten values of word 0, value 10, ten values of word 1, value 21, ten values of word 2. -/
abbrev pieces (Q : IVec S32x3x256 32) : List ((s : Shape) × (s.Idx → BitVec 32)) :=
  [⟨S32x10x256, triV (w0 Q) sh0⟩, ⟨S32x1x256, m10V (w0 Q) (w1 Q)⟩,
    ⟨S32x10x256, triV (w1 Q) (addi sh0 (broadcast S1x10x1 1#32))⟩, ⟨S32x1x256, m21V (w1 Q) (w2 Q)⟩,
    ⟨S32x10x256, triV (w2 Q) (addi sh0 (broadcast S1x10x1 2#32))⟩]

/-- Value `j` of group `g` at lane `l`, among the 32 values side by side, is the stored field of the group's words. -/
theorem catV_at (Q : IVec S32x3x256 32) (g : Fin 32) (j : Fin 32) (l : Fin 256) :
    catV Q (ix3 g j l)
      = Cert.Unpack.field (Q (ix3 g (0 : Fin 3) l)) (Q (ix3 g (1 : Fin 3) l)) (Q (ix3 g (2 : Fin 3) l)) j := by
  show concatenate S32x32x256 1 (pieces Q) concatenates_S32x10x256_S32x1x256_S32x10x256_S32x1x256_S32x10x256_S32x32x256_d1 (ix3 g j l) = _
  have hj := j.isLt
  by_cases h1 : j.val < 10
  · refine (concatenate_apply_piece (t := S32x32x256) (1 : Fin 3) (pieces Q) concatenates_S32x10x256_S32x1x256_S32x10x256_S32x1x256_S32x10x256_S32x32x256_d1 (ix3 g j l) 0 (by show (0 : ℕ) < 5; omega) S32x10x256 _ rfl rfl 0 rfl
      (ix3 g (⟨j.val, h1⟩ : Fin 10) l) ?_ ?_).trans ?_
    · intro b hb
      match b with
      | ⟨0, _⟩ => rfl
      | ⟨1, _⟩ => exact absurd rfl hb
      | ⟨2, _⟩ => rfl
    · show 0 + j.val = j.val; omega
    · rw [triV_at, sh0_at, w0_at, Cert.Unpack.field_lo _ _ _ j ⟨j.val, h1⟩ rfl]
      exact Cert.Unpack.andi_shrui_eq_tri .vector _ _ 0 _ (by omega) (Cert.Unpack.amount_kernel0 _)
  by_cases h2 : j.val = 10
  · refine (concatenate_apply_piece (t := S32x32x256) (1 : Fin 3) (pieces Q) concatenates_S32x10x256_S32x1x256_S32x10x256_S32x1x256_S32x10x256_S32x32x256_d1 (ix3 g j l) 1 (by show (1 : ℕ) < 5; omega) S32x1x256 _ rfl rfl 10 rfl
      (ix3 g (0 : Fin 1) l) ?_ ?_).trans ?_
    · intro b hb
      match b with
      | ⟨0, _⟩ => rfl
      | ⟨1, _⟩ => exact absurd rfl hb
      | ⟨2, _⟩ => rfl
    · show 10 + 0 = j.val; omega
    · rw [m10V_at, w0_at, w1_at, Cert.Unpack.field_10 _ _ _ j h2]
  by_cases h3 : j.val < 21
  · refine (concatenate_apply_piece (t := S32x32x256) (1 : Fin 3) (pieces Q) concatenates_S32x10x256_S32x1x256_S32x10x256_S32x1x256_S32x10x256_S32x32x256_d1 (ix3 g j l) 2 (by show (2 : ℕ) < 5; omega) S32x10x256 _ rfl rfl 11 rfl
      (ix3 g (⟨j.val - 11, by omega⟩ : Fin 10) l) ?_ ?_).trans ?_
    · intro b hb
      match b with
      | ⟨0, _⟩ => rfl
      | ⟨1, _⟩ => exact absurd rfl hb
      | ⟨2, _⟩ => rfl
    · show 11 + (j.val - 11) = j.val; omega
    · rw [triV_at, sh1_at, w1_at, Cert.Unpack.field_mid _ _ _ j ⟨j.val - 11, by omega⟩ (by show j.val = 11 + (j.val - 11); omega)]
      exact Cert.Unpack.andi_shrui_eq_tri .vector _ _ 1 _ (by omega) (Cert.Unpack.amount_kernel1 _)
  by_cases h4 : j.val = 21
  · refine (concatenate_apply_piece (t := S32x32x256) (1 : Fin 3) (pieces Q) concatenates_S32x10x256_S32x1x256_S32x10x256_S32x1x256_S32x10x256_S32x32x256_d1 (ix3 g j l) 3 (by show (3 : ℕ) < 5; omega) S32x1x256 _ rfl rfl 21 rfl
      (ix3 g (0 : Fin 1) l) ?_ ?_).trans ?_
    · intro b hb
      match b with
      | ⟨0, _⟩ => rfl
      | ⟨1, _⟩ => exact absurd rfl hb
      | ⟨2, _⟩ => rfl
    · show 21 + 0 = j.val; omega
    · rw [m21V_at, w1_at, w2_at, Cert.Unpack.field_21 _ _ _ j h4]
  · refine (concatenate_apply_piece (t := S32x32x256) (1 : Fin 3) (pieces Q) concatenates_S32x10x256_S32x1x256_S32x10x256_S32x1x256_S32x10x256_S32x32x256_d1 (ix3 g j l) 4 (by show (4 : ℕ) < 5; omega) S32x10x256 _ rfl rfl 22 rfl
      (ix3 g (⟨j.val - 22, by omega⟩ : Fin 10) l) ?_ ?_).trans ?_
    · intro b hb
      match b with
      | ⟨0, _⟩ => rfl
      | ⟨1, _⟩ => exact absurd rfl hb
      | ⟨2, _⟩ => rfl
    · show 22 + (j.val - 22) = j.val; omega
    · rw [triV_at, sh2_at, w2_at, Cert.Unpack.field_hi _ _ _ j ⟨j.val - 22, by omega⟩ (by show j.val = 22 + (j.val - 22); omega)]
      exact Cert.Unpack.andi_shrui_eq_tri .vector _ _ 2 _ (by omega) (Cert.Unpack.amount_kernel2 _)

/-- The tile at row `k = 32g + j`, lane `l`. -/
theorem tile_at (q : Vec Ideal S96x256 .i32) (sc zr : FVec Ideal S1x256 .f32) (g : Fin 32) (j : Fin 32) (l : Fin 256)
    (k : Fin 1024) (hk : k.val = g.val * 32 + j.val) :
    tile (F := Ideal) q sc zr (ix2 k l)
      = (((Cert.Unpack.field (q (ix2 (wrow g 0) l)) (q (ix2 (wrow g 1) l)) (q (ix2 (wrow g 2) l)) j).toInt : ℝ) : EReal)
          * sc (ix2 (0 : Fin 1) l) - zr (ix2 (0 : Fin 1) l) := by
  show (((shapeCast S1024x256 (catV (words q)) shapeCasts_S32x32x256_S1024x256 (ix2 k l)).toInt : ℝ) : EReal)
      * broadcastTo S1024x256 sc broadcasts_S1x256_S1024x256 (ix2 k l)
      - broadcastTo S1024x256 zr broadcasts_S1x256_S1024x256 (ix2 k l) = _
  rw [shapeCast_abc_nc_apply _ shapeCasts_S32x32x256_S1024x256 g j l k hk, catV_at, words_at, words_at, words_at,
    broadcastTo_1b_ab_apply, broadcastTo_1b_ab_apply]

/-- The step at `(r, l)`. -/
theorem step_at (q : Vec Ideal S96x256 .i32) (sc zr : FVec Ideal S1x256 .f32) (xc : FVec Ideal S2048x1024 .bf16)
    (acc : FVec Ideal S2048x256 .f32) (r : Fin 2048) (l : Fin 256) :
    step (F := Ideal) q sc zr xc acc (ix2 r l)
      = acc (ix2 r l) + ∑ k : Fin 1024, xc (ix2 r k) * tile (F := Ideal) q sc zr (ix2 k l) := by
  unfold step
  rw [shapeCast_self, addf_apply, shapeCast_self]
  congr 1
  exact matmul_plain_apply dot_S2048x1024_S1024x256_S2048x256_1_0_0_1_n_n_wf none xc (tile (F := Ideal) q sc zr) r l

end Cert.KernelIdeal.Chunk

end
-- ==== Proof.KBlock.lean ====
/-
  The stored block at an index, at the ideal values. Entry (r, l) of the block the body stores is the four quarters'
  sums accumulated from zero, plus the bias row's entry l: quarter c contributes the sum over its 1024 coordinates k
  of the input entry (r, 1024c + k) times the quarter's tile entry (k, l), the tile being built from packed rows
  96c .. 96c + 95 and the scale and zero rows.
-/
import proofs.«425514_j83064667505244_3_alg».proof.Proof.KBody
import proofs.«425514_j83064667505244_3_alg».proof.Proof.KStep

noncomputable section

namespace Cert.KernelIdeal.Body

open Cert.KernelIdeal Cert.KernelIdeal.Gen Cert.KernelIdeal.Chunk
open Idealize.ShloMosaic Idealize.ShloMosaic.ValueIdx

/-- Packed row `a` of quarter `c` is row `96c + a` of the packed block. -/
theorem rows0_at (x1 : Vec Ideal S384x256 .i32) (a : Fin 96) (l : Fin 256) :
    rows0 x1 (ix2 a l) = x1 (ix2 (⟨a.val, by have := a.isLt; omega⟩ : Fin 384) l) :=
  congrArg x1 (funext fun ax => Fin.ext (match ax with
    | ⟨0, _⟩ => by show 0 + 1 * a.val = a.val; omega
    | ⟨1, _⟩ => by show 0 + 1 * l.val = l.val; omega))
theorem rows1_at (x1 : Vec Ideal S384x256 .i32) (a : Fin 96) (l : Fin 256) :
    rows1 x1 (ix2 a l) = x1 (ix2 (⟨96 + a.val, by have := a.isLt; omega⟩ : Fin 384) l) :=
  congrArg x1 (funext fun ax => Fin.ext (match ax with
    | ⟨0, _⟩ => by show 96 + 1 * a.val = 96 + a.val; omega
    | ⟨1, _⟩ => by show 0 + 1 * l.val = l.val; omega))
theorem rows2_at (x1 : Vec Ideal S384x256 .i32) (a : Fin 96) (l : Fin 256) :
    rows2 x1 (ix2 a l) = x1 (ix2 (⟨192 + a.val, by have := a.isLt; omega⟩ : Fin 384) l) :=
  congrArg x1 (funext fun ax => Fin.ext (match ax with
    | ⟨0, _⟩ => by show 192 + 1 * a.val = 192 + a.val; omega
    | ⟨1, _⟩ => by show 0 + 1 * l.val = l.val; omega))
theorem rows3_at (x1 : Vec Ideal S384x256 .i32) (a : Fin 96) (l : Fin 256) :
    rows3 x1 (ix2 a l) = x1 (ix2 (⟨288 + a.val, by have := a.isLt; omega⟩ : Fin 384) l) :=
  congrArg x1 (funext fun ax => Fin.ext (match ax with
    | ⟨0, _⟩ => by show 288 + 1 * a.val = 288 + a.val; omega
    | ⟨1, _⟩ => by show 0 + 1 * l.val = l.val; omega))

/-- Input column `k` of quarter `c` is column `1024c + k` of the input. -/
theorem cols0_at (x0 : Vec Ideal S2048x4096 .bf16) (r : Fin 2048) (k : Fin 1024) :
    cols0 x0 (ix2 r k) = x0 (ix2 r (⟨k.val, by have := k.isLt; omega⟩ : Fin 4096)) :=
  congrArg x0 (funext fun ax => Fin.ext (match ax with
    | ⟨0, _⟩ => by show 0 + 1 * r.val = r.val; omega
    | ⟨1, _⟩ => by show 0 + 1 * k.val = k.val; omega))
theorem cols1_at (x0 : Vec Ideal S2048x4096 .bf16) (r : Fin 2048) (k : Fin 1024) :
    cols1 x0 (ix2 r k) = x0 (ix2 r (⟨1024 + k.val, by have := k.isLt; omega⟩ : Fin 4096)) :=
  congrArg x0 (funext fun ax => Fin.ext (match ax with
    | ⟨0, _⟩ => by show 0 + 1 * r.val = r.val; omega
    | ⟨1, _⟩ => by show 1024 + 1 * k.val = 1024 + k.val; omega))
theorem cols2_at (x0 : Vec Ideal S2048x4096 .bf16) (r : Fin 2048) (k : Fin 1024) :
    cols2 x0 (ix2 r k) = x0 (ix2 r (⟨2048 + k.val, by have := k.isLt; omega⟩ : Fin 4096)) :=
  congrArg x0 (funext fun ax => Fin.ext (match ax with
    | ⟨0, _⟩ => by show 0 + 1 * r.val = r.val; omega
    | ⟨1, _⟩ => by show 2048 + 1 * k.val = 2048 + k.val; omega))
theorem cols3_at (x0 : Vec Ideal S2048x4096 .bf16) (r : Fin 2048) (k : Fin 1024) :
    cols3 x0 (ix2 r k) = x0 (ix2 r (⟨3072 + k.val, by have := k.isLt; omega⟩ : Fin 4096)) :=
  congrArg x0 (funext fun ax => Fin.ext (match ax with
    | ⟨0, _⟩ => by show 0 + 1 * r.val = r.val; omega
    | ⟨1, _⟩ => by show 3072 + 1 * k.val = 3072 + k.val; omega))

/-- The zeroed accumulator. -/
theorem zero_at (i : S2048x256.Idx) : k0_pay5 (F := Ideal) i = 0 := by
  unfold k0_pay5
  rw [shapeCast_self]
  exact Ideal.ofBits_zero_f32

/-- The scale and zero rows as the body reads them are the blocks themselves. -/
theorem scale_eq (x2 : Vec Ideal S1x256 .f32) : k0_pay3 x2 = x2 := by
  unfold k0_pay3; exact shapeCast_self _ _
theorem zero_eq (x3 : Vec Ideal S1x256 .f32) : k0_pay4 x3 = x3 := by
  unfold k0_pay4; exact shapeCast_self _ _

/-- The stored block at `(r, l)`: the four quarters accumulated from zero, plus the bias. -/
theorem bodyVal_at (x0 : Vec Ideal S2048x4096 .bf16) (x1 : Vec Ideal S384x256 .i32) (x2 x3 x4 : Vec Ideal S1x256 .f32)
    (r : Fin 2048) (l : Fin 256) :
    bodyVal x0 x1 x2 x3 x4 (ix2 r l)
      = (((((0 : EReal) + ∑ k : Fin 1024, cols0 x0 (ix2 r k) * tile (F := Ideal) (rows0 x1) x2 x3 (ix2 k l))
          + ∑ k : Fin 1024, cols1 x0 (ix2 r k) * tile (F := Ideal) (rows1 x1) x2 x3 (ix2 k l))
          + ∑ k : Fin 1024, cols2 x0 (ix2 r k) * tile (F := Ideal) (rows2 x1) x2 x3 (ix2 k l))
          + ∑ k : Fin 1024, cols3 x0 (ix2 r k) * tile (F := Ideal) (rows3 x1) x2 x3 (ix2 k l))
        + x4 (ix2 (0 : Fin 1) l) := by
  unfold bodyVal k0_pay2 accVal
  rw [addf_apply, broadcastTo_1b_ab_apply, shapeCast_self, scale_eq, zero_eq,
    step_at, step_at, step_at, step_at, zero_at]

end Cert.KernelIdeal.Body

end
-- ==== Proof.Spec.lean ====
/-
  The function both programs compute, entry by entry.

  The weight matrix is stored three bits an entry: row n of the packed array holds 128 groups of three words, group G
  carrying the 32 integers W(n, 32·G + j), j < 32, each in 0..7. The dequantised weight is that integer (exactly, as a
  real) times the row's scale minus the row's zero point, and the result is the product of the input rows with the
  dequantised weight rows, plus the bias:

      out(r, n) = Σ_{k < 4096} x(r, k) · (W(n, k) · s(n) − z(n)) + b(n).

  A sum over the 4096 contracted coordinates is the sum of its four consecutive quarters of 1024, in any commutative
  monoid: the extended reals' addition is one, so the quarters may be accumulated one after the other from zero.
-/
import proofs.«425514_j83064667505244_3_alg».proof.Proof.Unpack
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- Word `t` (0, 1 or 2) of the group that holds weight `(n, k)`: column `3·(k / 32) + t` of row `n`. -/
abbrev wordCol (k : Fin 4096) (t : Fin 3) : Fin 384 := ⟨3 * (k.val / 32) + t.val, by have := k.isLt; have := t.isLt; omega⟩

/-- The stored integer `W(n, k)`: value `k mod 32` of group `k / 32` of row `n`. -/
def intWeight (q : (⟨2, ![4096, 384]⟩ : Shape).Idx → BitVec 32) (n k : Fin 4096) : BitVec 32 :=
  Cert.Unpack.field (q (ix2 n (wordCol k 0))) (q (ix2 n (wordCol k 1))) (q (ix2 n (wordCol k 2)))
    ⟨k.val % 32, Nat.mod_lt _ (by decide)⟩

/-- The dequantised weight `W(n, k) · s(n) − z(n)` on the extended reals. -/
def weight (q : (⟨2, ![4096, 384]⟩ : Shape).Idx → BitVec 32) (s z : (⟨2, ![4096, 1]⟩ : Shape).Idx → EReal)
    (n k : Fin 4096) : EReal :=
  (((intWeight q n k).toInt : ℝ) : EReal) * s (ix2 n (0 : Fin 1)) - z (ix2 n (0 : Fin 1))

/-- The result at row `r`, column `n`. -/
def outAt (x : (⟨2, ![2048, 4096]⟩ : Shape).Idx → EReal) (q : (⟨2, ![4096, 384]⟩ : Shape).Idx → BitVec 32)
    (s z : (⟨2, ![4096, 1]⟩ : Shape).Idx → EReal) (b : (⟨1, ![4096]⟩ : Shape).Idx → EReal)
    (r : Fin 2048) (n : Fin 4096) : EReal :=
  (∑ k : Fin 4096, x (ix2 r k) * weight q s z n k) + b (ix1 n)

/-- The whole result array. -/
def out (x : (⟨2, ![2048, 4096]⟩ : Shape).Idx → EReal) (q : (⟨2, ![4096, 384]⟩ : Shape).Idx → BitVec 32)
    (s z : (⟨2, ![4096, 1]⟩ : Shape).Idx → EReal) (b : (⟨1, ![4096]⟩ : Shape).Idx → EReal) :
    (⟨2, ![2048, 4096]⟩ : Shape).Idx → EReal :=
  fun i => outAt x q s z b (i 0) (i 1)

theorem out_ix2 (x : (⟨2, ![2048, 4096]⟩ : Shape).Idx → EReal) (q : (⟨2, ![4096, 384]⟩ : Shape).Idx → BitVec 32)
    (s z : (⟨2, ![4096, 1]⟩ : Shape).Idx → EReal) (b : (⟨1, ![4096]⟩ : Shape).Idx → EReal) (r : Fin 2048) (n : Fin 4096) :
    out x q s z b (ix2 r n) = outAt x q s z b r n := rfl

/-- A sum over 4096 coordinates is the sum over its four quarters of the sums over 1024. -/
theorem sum_quarters {M : Type*} [AddCommMonoid M] (f : Fin 4096 → M) :
    ∑ k : Fin 4096, f k
      = ∑ c : Fin 4, ∑ l : Fin 1024, f ⟨1024 * c.val + l.val, by have := c.isLt; have := l.isLt; omega⟩ := by
  rw [← Equiv.sum_comp (finProdFinEquiv (m := 4) (n := 1024)) f, Fintype.sum_prod_type]
  refine Finset.sum_congr rfl fun c _ => Finset.sum_congr rfl fun l _ => congrArg f (Fin.ext ?_)
  show l.val + 1024 * c.val = 1024 * c.val + l.val
  omega

/-- The four quarters accumulated one after the other from zero. -/
theorem sum_quarters_acc {M : Type*} [AddCommMonoid M] (f : Fin 4096 → M) :
    ((((0 : M) + ∑ l : Fin 1024, f ⟨l.val, by have := l.isLt; omega⟩)
        + ∑ l : Fin 1024, f ⟨1024 + l.val, by have := l.isLt; omega⟩)
        + ∑ l : Fin 1024, f ⟨2048 + l.val, by have := l.isLt; omega⟩)
        + ∑ l : Fin 1024, f ⟨3072 + l.val, by have := l.isLt; omega⟩
      = ∑ k : Fin 4096, f k := by
  rw [sum_quarters, Fin.sum_univ_four, zero_add]
  refine congrArg₂ (· + ·) (congrArg₂ (· + ·) (congrArg₂ (· + ·) ?_ ?_) ?_) ?_ <;>
    exact Finset.sum_congr rfl fun l _ => congrArg f (Fin.ext (by simp))

end Cert.Spec

end
-- ==== Proof.KSum.lean ====
/-
  The stored block is the specification's function. If the body's five input blocks are, entry by entry, the arguments'
  entries they stand for — the input rows whole, row a of the packed block the packed word (n, a) of output column n,
  the scale, zero and bias rows' lane l the entries of column n — then the block's entry (r, l) is the specification's
  out(r, n): quarter c of the body's accumulation is the quarter 1024c .. 1024c + 1023 of the contracted sum, term by
  term, because coordinate k of quarter c lies in group 32c + k / 32 of the row, whose words are packed rows
  96c + 3·(k / 32) + t of the block, at value k mod 32; and the four quarters accumulated from zero are the whole sum.
-/
import proofs.«425514_j83064667505244_3_alg».proof.Proof.KBlock
import proofs.«425514_j83064667505244_3_alg».proof.Proof.Spec

noncomputable section

namespace Cert.KernelIdeal.Body

open Cert.KernelIdeal Cert.KernelIdeal.Gen Cert.KernelIdeal.Chunk
open Idealize.ShloMosaic Idealize.ShloMosaic.ValueIdx

/-- Three words at columns 3·(K / 32), +1, +2 of row n, read at value K mod 32, are the stored integer W(n, K). -/
theorem field_words (q : (⟨2, ![4096, 384]⟩ : Shape).Idx → BitVec 32) (n K : Fin 4096) (b0 b1 b2 : Fin 384) (j : Fin 32)
    (e0 : b0.val = 3 * (K.val / 32)) (e1 : b1.val = 3 * (K.val / 32) + 1) (e2 : b2.val = 3 * (K.val / 32) + 2)
    (ej : j.val = K.val % 32) :
    Cert.Unpack.field (q (ix2 n b0)) (q (ix2 n b1)) (q (ix2 n b2)) j = Cert.Spec.intWeight q n K := by
  obtain rfl : b0 = Cert.Spec.wordCol K 0 := Fin.ext (by show b0.val = 3 * (K.val / 32) + 0; omega)
  obtain rfl : b1 = Cert.Spec.wordCol K 1 := Fin.ext (by show b1.val = 3 * (K.val / 32) + 1; omega)
  obtain rfl : b2 = Cert.Spec.wordCol K 2 := Fin.ext (by show b2.val = 3 * (K.val / 32) + 2; omega)
  obtain rfl : j = ⟨K.val % 32, Nat.mod_lt _ (by decide)⟩ := Fin.ext ej
  rfl

theorem quarter0_term (X0 : Vec Ideal S2048x4096 .bf16) (X1 : Vec Ideal S384x256 .i32) (X2 X3 : Vec Ideal S1x256 .f32)
    (x : (⟨2, ![2048, 4096]⟩ : Shape).Idx → EReal) (q : (⟨2, ![4096, 384]⟩ : Shape).Idx → BitVec 32)
    (s z : (⟨2, ![4096, 1]⟩ : Shape).Idx → EReal) (r : Fin 2048) (n : Fin 4096) (l : Fin 256)
    (h0 : ∀ k : Fin 4096, X0 (ix2 r k) = x (ix2 r k)) (h1 : ∀ a : Fin 384, X1 (ix2 a l) = q (ix2 n a))
    (h2 : X2 (ix2 (0 : Fin 1) l) = s (ix2 n (0 : Fin 1))) (h3 : X3 (ix2 (0 : Fin 1) l) = z (ix2 n (0 : Fin 1)))
    (k : Fin 1024) :
    cols0 X0 (ix2 r k) * tile (F := Ideal) (rows0 X1) X2 X3 (ix2 k l)
      = x (ix2 r (⟨k.val, by have := k.isLt; omega⟩ : Fin 4096))
          * Cert.Spec.weight q s z n (⟨k.val, by have := k.isLt; omega⟩ : Fin 4096) := by
  have hk := k.isLt
  rw [cols0_at, h0,
    tile_at (rows0 X1) X2 X3 (⟨k.val / 32, by omega⟩ : Fin 32) (⟨k.val % 32, Nat.mod_lt _ (by decide)⟩ : Fin 32) l k
      (by show k.val = k.val / 32 * 32 + k.val % 32; omega),
    rows0_at, rows0_at, rows0_at, h1, h1, h1, h2, h3]
  unfold Cert.Spec.weight
  rw [field_words q n (⟨k.val, by omega⟩ : Fin 4096) _ _ _ _
    (by show (k.val / 32 * 3 + 0) = 3 * ((k.val) / 32); omega)
    (by show (k.val / 32 * 3 + 1) = 3 * ((k.val) / 32) + 1; omega)
    (by show (k.val / 32 * 3 + 2) = 3 * ((k.val) / 32) + 2; omega)
    (by show k.val % 32 = (k.val) % 32; omega)]

theorem quarter1_term (X0 : Vec Ideal S2048x4096 .bf16) (X1 : Vec Ideal S384x256 .i32) (X2 X3 : Vec Ideal S1x256 .f32)
    (x : (⟨2, ![2048, 4096]⟩ : Shape).Idx → EReal) (q : (⟨2, ![4096, 384]⟩ : Shape).Idx → BitVec 32)
    (s z : (⟨2, ![4096, 1]⟩ : Shape).Idx → EReal) (r : Fin 2048) (n : Fin 4096) (l : Fin 256)
    (h0 : ∀ k : Fin 4096, X0 (ix2 r k) = x (ix2 r k)) (h1 : ∀ a : Fin 384, X1 (ix2 a l) = q (ix2 n a))
    (h2 : X2 (ix2 (0 : Fin 1) l) = s (ix2 n (0 : Fin 1))) (h3 : X3 (ix2 (0 : Fin 1) l) = z (ix2 n (0 : Fin 1)))
    (k : Fin 1024) :
    cols1 X0 (ix2 r k) * tile (F := Ideal) (rows1 X1) X2 X3 (ix2 k l)
      = x (ix2 r (⟨1024 + k.val, by have := k.isLt; omega⟩ : Fin 4096))
          * Cert.Spec.weight q s z n (⟨1024 + k.val, by have := k.isLt; omega⟩ : Fin 4096) := by
  have hk := k.isLt
  rw [cols1_at, h0,
    tile_at (rows1 X1) X2 X3 (⟨k.val / 32, by omega⟩ : Fin 32) (⟨k.val % 32, Nat.mod_lt _ (by decide)⟩ : Fin 32) l k
      (by show k.val = k.val / 32 * 32 + k.val % 32; omega),
    rows1_at, rows1_at, rows1_at, h1, h1, h1, h2, h3]
  unfold Cert.Spec.weight
  rw [field_words q n (⟨1024 + k.val, by omega⟩ : Fin 4096) _ _ _ _
    (by show 96 + (k.val / 32 * 3 + 0) = 3 * ((1024 + k.val) / 32); omega)
    (by show 96 + (k.val / 32 * 3 + 1) = 3 * ((1024 + k.val) / 32) + 1; omega)
    (by show 96 + (k.val / 32 * 3 + 2) = 3 * ((1024 + k.val) / 32) + 2; omega)
    (by show k.val % 32 = (1024 + k.val) % 32; omega)]

theorem quarter2_term (X0 : Vec Ideal S2048x4096 .bf16) (X1 : Vec Ideal S384x256 .i32) (X2 X3 : Vec Ideal S1x256 .f32)
    (x : (⟨2, ![2048, 4096]⟩ : Shape).Idx → EReal) (q : (⟨2, ![4096, 384]⟩ : Shape).Idx → BitVec 32)
    (s z : (⟨2, ![4096, 1]⟩ : Shape).Idx → EReal) (r : Fin 2048) (n : Fin 4096) (l : Fin 256)
    (h0 : ∀ k : Fin 4096, X0 (ix2 r k) = x (ix2 r k)) (h1 : ∀ a : Fin 384, X1 (ix2 a l) = q (ix2 n a))
    (h2 : X2 (ix2 (0 : Fin 1) l) = s (ix2 n (0 : Fin 1))) (h3 : X3 (ix2 (0 : Fin 1) l) = z (ix2 n (0 : Fin 1)))
    (k : Fin 1024) :
    cols2 X0 (ix2 r k) * tile (F := Ideal) (rows2 X1) X2 X3 (ix2 k l)
      = x (ix2 r (⟨2048 + k.val, by have := k.isLt; omega⟩ : Fin 4096))
          * Cert.Spec.weight q s z n (⟨2048 + k.val, by have := k.isLt; omega⟩ : Fin 4096) := by
  have hk := k.isLt
  rw [cols2_at, h0,
    tile_at (rows2 X1) X2 X3 (⟨k.val / 32, by omega⟩ : Fin 32) (⟨k.val % 32, Nat.mod_lt _ (by decide)⟩ : Fin 32) l k
      (by show k.val = k.val / 32 * 32 + k.val % 32; omega),
    rows2_at, rows2_at, rows2_at, h1, h1, h1, h2, h3]
  unfold Cert.Spec.weight
  rw [field_words q n (⟨2048 + k.val, by omega⟩ : Fin 4096) _ _ _ _
    (by show 192 + (k.val / 32 * 3 + 0) = 3 * ((2048 + k.val) / 32); omega)
    (by show 192 + (k.val / 32 * 3 + 1) = 3 * ((2048 + k.val) / 32) + 1; omega)
    (by show 192 + (k.val / 32 * 3 + 2) = 3 * ((2048 + k.val) / 32) + 2; omega)
    (by show k.val % 32 = (2048 + k.val) % 32; omega)]

theorem quarter3_term (X0 : Vec Ideal S2048x4096 .bf16) (X1 : Vec Ideal S384x256 .i32) (X2 X3 : Vec Ideal S1x256 .f32)
    (x : (⟨2, ![2048, 4096]⟩ : Shape).Idx → EReal) (q : (⟨2, ![4096, 384]⟩ : Shape).Idx → BitVec 32)
    (s z : (⟨2, ![4096, 1]⟩ : Shape).Idx → EReal) (r : Fin 2048) (n : Fin 4096) (l : Fin 256)
    (h0 : ∀ k : Fin 4096, X0 (ix2 r k) = x (ix2 r k)) (h1 : ∀ a : Fin 384, X1 (ix2 a l) = q (ix2 n a))
    (h2 : X2 (ix2 (0 : Fin 1) l) = s (ix2 n (0 : Fin 1))) (h3 : X3 (ix2 (0 : Fin 1) l) = z (ix2 n (0 : Fin 1)))
    (k : Fin 1024) :
    cols3 X0 (ix2 r k) * tile (F := Ideal) (rows3 X1) X2 X3 (ix2 k l)
      = x (ix2 r (⟨3072 + k.val, by have := k.isLt; omega⟩ : Fin 4096))
          * Cert.Spec.weight q s z n (⟨3072 + k.val, by have := k.isLt; omega⟩ : Fin 4096) := by
  have hk := k.isLt
  rw [cols3_at, h0,
    tile_at (rows3 X1) X2 X3 (⟨k.val / 32, by omega⟩ : Fin 32) (⟨k.val % 32, Nat.mod_lt _ (by decide)⟩ : Fin 32) l k
      (by show k.val = k.val / 32 * 32 + k.val % 32; omega),
    rows3_at, rows3_at, rows3_at, h1, h1, h1, h2, h3]
  unfold Cert.Spec.weight
  rw [field_words q n (⟨3072 + k.val, by omega⟩ : Fin 4096) _ _ _ _
    (by show 288 + (k.val / 32 * 3 + 0) = 3 * ((3072 + k.val) / 32); omega)
    (by show 288 + (k.val / 32 * 3 + 1) = 3 * ((3072 + k.val) / 32) + 1; omega)
    (by show 288 + (k.val / 32 * 3 + 2) = 3 * ((3072 + k.val) / 32) + 2; omega)
    (by show k.val % 32 = (3072 + k.val) % 32; omega)]

/-- The stored block at `(r, l)` is the specification's result at `(r, n)`. -/
theorem bodyVal_eq_outAt (X0 : Vec Ideal S2048x4096 .bf16) (X1 : Vec Ideal S384x256 .i32) (X2 X3 X4 : Vec Ideal S1x256 .f32)
    (x : (⟨2, ![2048, 4096]⟩ : Shape).Idx → EReal) (q : (⟨2, ![4096, 384]⟩ : Shape).Idx → BitVec 32)
    (s z : (⟨2, ![4096, 1]⟩ : Shape).Idx → EReal) (b : (⟨1, ![4096]⟩ : Shape).Idx → EReal)
    (r : Fin 2048) (n : Fin 4096) (l : Fin 256)
    (h0 : ∀ k : Fin 4096, X0 (ix2 r k) = x (ix2 r k)) (h1 : ∀ a : Fin 384, X1 (ix2 a l) = q (ix2 n a))
    (h2 : X2 (ix2 (0 : Fin 1) l) = s (ix2 n (0 : Fin 1))) (h3 : X3 (ix2 (0 : Fin 1) l) = z (ix2 n (0 : Fin 1)))
    (h4 : X4 (ix2 (0 : Fin 1) l) = b (ix1 n)) :
    bodyVal X0 X1 X2 X3 X4 (ix2 r l) = Cert.Spec.outAt x q s z b r n := by
  rw [bodyVal_at, h4]
  unfold Cert.Spec.outAt
  congr 1
  rw [Finset.sum_congr rfl (fun k _ => quarter0_term X0 X1 X2 X3 x q s z r n l h0 h1 h2 h3 k),
    Finset.sum_congr rfl (fun k _ => quarter1_term X0 X1 X2 X3 x q s z r n l h0 h1 h2 h3 k),
    Finset.sum_congr rfl (fun k _ => quarter2_term X0 X1 X2 X3 x q s z r n l h0 h1 h2 h3 k),
    Finset.sum_congr rfl (fun k _ => quarter3_term X0 X1 X2 X3 x q s z r n l h0 h1 h2 h3 k)]
  exact Cert.Spec.sum_quarters_acc (fun k => x (ix2 r k) * Cert.Spec.weight q s z n k)

end Cert.KernelIdeal.Body

end
-- ==== Proof.KArrays.lean ====
/-
  The arrays the region's windows stage, as the region finds them, at the ideal values: the input array itself (a change
  of float format is the identity), the packed array transposed, and the scale, zero-point and bias columns laid out as
  rows — each read at an index.
-/
import proofs.«425514_j83064667505244_3_alg».proof.Proof.Gen.KernelIdeal.Frame
import Idealize.ShloMosaic.Lib.StableHlo.Run
import Idealize.ShloMosaic.Lib.Pipeline.Value
import Idealize.ShloMosaic.Lib.ValueLayout

noncomputable section

namespace Cert.KernelIdeal.Arrays

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The argument arrays on core `c`, as plain functions of the index. -/
abbrev a0 (c : Dev nD) : S2048x4096.Idx → EReal := m ((c : Thread nD τ).loc main_arg0)
abbrev a1 (c : Dev nD) : S4096x384.Idx → BitVec 32 := m ((c : Thread nD τ).loc main_arg1)
abbrev a2 (c : Dev nD) : S4096x1.Idx → EReal := m ((c : Thread nD τ).loc main_arg2)
abbrev a3 (c : Dev nD) : S4096x1.Idx → EReal := m ((c : Thread nD τ).loc main_arg3)
abbrev a4 (c : Dev nD) : S4096.Idx → EReal := m ((c : Thread nD τ).loc main_arg4)

theorem V_v0 (c : Dev nD) : (V m c main_v0 : S2048x4096.Idx → EReal) = truncf (F := Ideal) .bf16 (a0 m c) bitsLt_bf16_f32 := by
  dsimp only [Gen.V, Gen.hostOps0]; after_results

theorem V_v1 (c : Dev nD) : (V m c main_v1 : S384x4096.Idx → BitVec 32)
    = transpose S384x4096 [1, 0] (a1 m c) transposes_S4096x384_S384x4096_1_0 := by
  dsimp only [Gen.V, Gen.hostOps0]; after_results

theorem V_v2 (c : Dev nD) : (V m c main_v2 : S1x4096.Idx → EReal) = shapeCast S1x4096 (a2 m c) shapeCasts_S4096x1_S1x4096 := by
  dsimp only [Gen.V, Gen.hostOps0]; after_results; rfl

theorem V_v3 (c : Dev nD) : (V m c main_v3 : S1x4096.Idx → EReal) = shapeCast S1x4096 (a3 m c) shapeCasts_S4096x1_S1x4096 := by
  dsimp only [Gen.V, Gen.hostOps0]; after_results; rfl

theorem V_v4 (c : Dev nD) : (V m c main_v4 : S1x4096.Idx → EReal) = shapeCast S1x4096 (a4 m c) shapeCasts_S4096_S1x4096 := by
  dsimp only [Gen.V, Gen.hostOps0]; after_results; rfl

/-- The staged input at `(r, k)` is the input's entry. -/
theorem V_v0_at (c : Dev nD) (r : Fin 2048) (k : Fin 4096) :
    (V m c main_v0 : S2048x4096.Idx → EReal) (ix2 r k) = a0 m c (ix2 r k) := by
  rw [V_v0]; rfl

/-- The staged packed array at `(a, n)` is the packed word `(n, a)`. -/
theorem V_v1_at (c : Dev nD) (a : Fin 384) (n : Fin 4096) :
    (V m c main_v1 : S384x4096.Idx → BitVec 32) (ix2 a n) = a1 m c (ix2 n a) := by
  rw [V_v1]
  exact transpose_apply [1, 0] (a1 m c) transposes_S4096x384_S384x4096_1_0 (ix2 a n) (ix2 n a) (fun b => match b with
    | ⟨0, _⟩ => rfl
    | ⟨1, _⟩ => rfl)

/-- The staged scale row at `(0, n)` is the scale of column `n`; likewise the zero point. -/
theorem V_v2_at (c : Dev nD) (n : Fin 4096) :
    (V m c main_v2 : S1x4096.Idx → EReal) (ix2 (0 : Fin 1) n) = a2 m c (ix2 n (0 : Fin 1)) := by
  rw [V_v2]
  exact shapeCast_apply (a2 m c) shapeCasts_S4096x1_S1x4096 _ _ (by
    rw [Shape.rowMajor_val_two, Shape.rowMajor_val_two]; show n.val * 1 + 0 = 0 * 4096 + n.val; omega)

theorem V_v3_at (c : Dev nD) (n : Fin 4096) :
    (V m c main_v3 : S1x4096.Idx → EReal) (ix2 (0 : Fin 1) n) = a3 m c (ix2 n (0 : Fin 1)) := by
  rw [V_v3]
  exact shapeCast_apply (a3 m c) shapeCasts_S4096x1_S1x4096 _ _ (by
    rw [Shape.rowMajor_val_two, Shape.rowMajor_val_two]; show n.val * 1 + 0 = 0 * 4096 + n.val; omega)

/-- The staged bias row at `(0, n)` is the bias of column `n`. -/
theorem V_v4_at (c : Dev nD) (n : Fin 4096) :
    (V m c main_v4 : S1x4096.Idx → EReal) (ix2 (0 : Fin 1) n) = a4 m c (ix1 n) := by
  rw [V_v4]
  exact shapeCast_apply (a4 m c) shapeCasts_S4096_S1x4096 _ _ (by
    rw [Shape.rowMajor_val_one, Shape.rowMajor_val_two]; show n.val = 0 * 4096 + n.val; omega)

end Cert.KernelIdeal.Arrays

end
-- ==== Proof.KValue.lean ====
/-
  From the blocks to the array. Grid point t stores the block of output columns 256t .. 256t + 255 (all 2048 rows); its
  input blocks are the whole input, columns 256t .. 256t + 255 of the transposed packed array, and lanes 256t .. of the
  scale, zero and bias rows. So what point t writes back is block t of the specification's result, the sixteen blocks
  tile the output array, and the array ends holding the specification's result of the arguments.
-/
import proofs.«425514_j83064667505244_3_alg».proof.Proof.Gen.KernelIdeal.Value
import proofs.«425514_j83064667505244_3_alg».proof.Proof.KSum
import proofs.«425514_j83064667505244_3_alg».proof.Proof.KArrays

set_option maxRecDepth 16384

noncomputable section

namespace Cert.KernelIdeal.Whole

open Cert.KernelIdeal Cert.KernelIdeal.Gen Cert.KernelIdeal.Body Cert.KernelIdeal.Arrays
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The specification's result of core `c`'s argument arrays. -/
def G (c : Dev nD) : S2048x4096.Idx → EReal := Cert.Spec.out (a0 m c) (a1 m c) (a2 m c) (a3 m c) (a4 m c)

/-- The printed index maps over the sixteen grid points: the input block is always block (0, 0); every other window's
    block is (0, t). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

/-- What point `t` writes back is block `t` of the specification's result. -/
theorem flushed_eq (c : Dev nD) (t : Fin cfg0.N) :
    (dats m 0 c).flushed 5 t = ((cfg0.win 5).blk t).view.read (Elt Ideal) (G m c) := by
  rw [Value.flushed5_A, out_eq]
  obtain ⟨e00, e01, e10, e11, e20, e21, e30, e31, e40, e41, e50, e51⟩ := idx_facts t
  have ht : t.val < 16 := t.isLt
  funext y
  obtain ⟨r, l, rfl⟩ : ∃ (r : Fin 2048) (l : Fin 256), y = ix2 r l := ⟨y 0, y 1, eq_ix2 y⟩
  have hr := r.isLt
  have hl := l.isLt
  show bodyVal (iblk m c 0 t) (iblk m c 1 t) (iblk m c 2 t) (iblk m c 3 t) (iblk m c 4 t) (ix2 r l)
    = G m c (((cfg0.win 5).blk t).view.emb (ix2 r l))
  have hn : ((cfg0.win 5).blk t).view.emb (ix2 r l) = ix2 r (⟨256 * t.val + l.val, by omega⟩ : Fin 4096) := by
    funext a; apply Fin.ext
    match a with
    | ⟨0, _⟩ => show win0_5.index t (0 : Fin 2) * 2048 + 1 * r.val = r.val; omega
    | ⟨1, _⟩ => show win0_5.index t (1 : Fin 2) * 256 + 1 * l.val = 256 * t.val + l.val; omega
  rw [hn]
  unfold G
  rw [Cert.Spec.out_ix2]
  refine bodyVal_eq_outAt (iblk m c 0 t) (iblk m c 1 t) (iblk m c 2 t) (iblk m c 3 t) (iblk m c 4 t)
    (a0 m c) (a1 m c) (a2 m c) (a3 m c) (a4 m c) r (⟨256 * t.val + l.val, by omega⟩ : Fin 4096) l ?_ ?_ ?_ ?_ ?_
  · intro k
    have hk := k.isLt
    show (V m c main_v0 : S2048x4096.Idx → EReal) (((cfg0.win 0).blk t).view.emb (ix2 r k)) = a0 m c (ix2 r k)
    have e : ((cfg0.win 0).blk t).view.emb (ix2 r k) = ix2 r k := by
      funext a; apply Fin.ext
      match a with
      | ⟨0, _⟩ => show win0_0.index t (0 : Fin 2) * 2048 + 1 * r.val = r.val; omega
      | ⟨1, _⟩ => show win0_0.index t (1 : Fin 2) * 4096 + 1 * k.val = k.val; omega
    rw [e]
    exact V_v0_at m c r k
  · intro a
    have ha := a.isLt
    show (V m c main_v1 : S384x4096.Idx → BitVec 32) (((cfg0.win 1).blk t).view.emb (ix2 a l)) = a1 m c (ix2 _ a)
    have e : ((cfg0.win 1).blk t).view.emb (ix2 a l) = ix2 a (⟨256 * t.val + l.val, by omega⟩ : Fin 4096) := by
      funext b; apply Fin.ext
      match b with
      | ⟨0, _⟩ => show win0_1.index t (0 : Fin 2) * 384 + 1 * a.val = a.val; omega
      | ⟨1, _⟩ => show win0_1.index t (1 : Fin 2) * 256 + 1 * l.val = 256 * t.val + l.val; omega
    rw [e]
    exact V_v1_at m c a _
  · show (V m c main_v2 : S1x4096.Idx → EReal) (((cfg0.win 2).blk t).view.emb (ix2 (0 : Fin 1) l)) = a2 m c (ix2 _ (0 : Fin 1))
    have e : ((cfg0.win 2).blk t).view.emb (ix2 (0 : Fin 1) l) = ix2 (0 : Fin 1) (⟨256 * t.val + l.val, by omega⟩ : Fin 4096) := by
      funext b; apply Fin.ext
      match b with
      | ⟨0, _⟩ => show win0_2.index t (0 : Fin 2) * 1 + 1 * 0 = 0; omega
      | ⟨1, _⟩ => show win0_2.index t (1 : Fin 2) * 256 + 1 * l.val = 256 * t.val + l.val; omega
    rw [e]
    exact V_v2_at m c _
  · show (V m c main_v3 : S1x4096.Idx → EReal) (((cfg0.win 3).blk t).view.emb (ix2 (0 : Fin 1) l)) = a3 m c (ix2 _ (0 : Fin 1))
    have e : ((cfg0.win 3).blk t).view.emb (ix2 (0 : Fin 1) l) = ix2 (0 : Fin 1) (⟨256 * t.val + l.val, by omega⟩ : Fin 4096) := by
      funext b; apply Fin.ext
      match b with
      | ⟨0, _⟩ => show win0_3.index t (0 : Fin 2) * 1 + 1 * 0 = 0; omega
      | ⟨1, _⟩ => show win0_3.index t (1 : Fin 2) * 256 + 1 * l.val = 256 * t.val + l.val; omega
    rw [e]
    exact V_v3_at m c _
  · show (V m c main_v4 : S1x4096.Idx → EReal) (((cfg0.win 4).blk t).view.emb (ix2 (0 : Fin 1) l)) = a4 m c (ix1 _)
    have e : ((cfg0.win 4).blk t).view.emb (ix2 (0 : Fin 1) l) = ix2 (0 : Fin 1) (⟨256 * t.val + l.val, by omega⟩ : Fin 4096) := by
      funext b; apply Fin.ext
      match b with
      | ⟨0, _⟩ => show win0_4.index t (0 : Fin 2) * 1 + 1 * 0 = 0; omega
      | ⟨1, _⟩ => show win0_4.index t (1 : Fin 2) * 256 + 1 * l.val = 256 * t.val + l.val; omega
    rw [e]
    exact V_v4_at m c _

/-- An index of the output array is in point `t`'s block iff each coordinate is in the block's range on its axis. -/
theorem mem_blk (t : Fin cfg0.N) (i : S2048x4096.Idx) :
    i ∈ ((cfg0.win 5).blk t).view.set ↔ ∀ a : Fin 2, win0_5.index t a * S2048x256.size a ≤ (i a).val
      ∧ (i a).val < win0_5.index t a * S2048x256.size a + S2048x256.size a := by
  show i ∈ ((View.whole main_v5).slice (win0_5.rect t)).set ↔ _
  rw [View.set_slice_whole, Rect.mem_set_unit]
  exact Iff.rfl

/-- Every index of the output array is in the block of the point that owns its column: point `column / 256`. -/
theorem cover (i : S2048x4096.Idx) : ∃ t : Fin cfg0.N, (cfg0.win 5).flush t = true ∧ i ∈ ((cfg0.win 5).blk t).view.set := by
  have h0 : (i 0).val < 2048 := (i 0).isLt
  have h1 : (i 1).val < 4096 := (i 1).isLt
  have hq : (i 1).val / 256 < 16 := by omega
  obtain ⟨-, -, -, -, -, -, -, -, -, -, e50, e51⟩ := idx_facts (⟨(i 1).val / 256, hq⟩ : Fin cfg0.N)
  have e51' : win0_5.index (⟨(i 1).val / 256, hq⟩ : Fin cfg0.N) (1 : Fin 2) = (i 1).val / 256 := e51
  refine ⟨⟨(i 1).val / 256, hq⟩, flush0_5 _, ?_⟩
  rw [mem_blk]
  intro a
  match a with
  | ⟨0, _⟩ =>
    show win0_5.index _ (0 : Fin 2) * 2048 ≤ (i 0).val ∧ (i 0).val < win0_5.index _ (0 : Fin 2) * 2048 + 2048
    omega
  | ⟨1, _⟩ =>
    show win0_5.index _ (1 : Fin 2) * 256 ≤ (i 1).val ∧ (i 1).val < win0_5.index _ (1 : Fin 2) * 256 + 256
    omega

/-- The output array after the run is the specification's result of the arguments. -/
theorem final (c : Dev nD) : (dats m 0 c).arrAt 5 cfg0.N = G m c :=
  (dats m 0 c).arrAt_eq_of_cover 5 (G m c) (fun t _ => flushed_eq m c t) cover

/-- The kernel's run: it terminates with the output array at the specification's result and the arguments unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefValue.lean ====
/-
  The reference at an index: its unpacked integers are the stored three-bit values, its dequantised weights the
  specification's, and its result the specification's function of the arguments.
-/
import proofs.«425514_j83064667505244_3_alg».proof.Proof.Gen.ReferenceIdeal.Read
import proofs.«425514_j83064667505244_3_alg».proof.Proof.Spec
import proofs.«425514_j83064667505244_3_alg».proof.Proof.LibRank3Layout

noncomputable section

namespace Cert.ReferenceIdeal.RefValue

open Cert.ReferenceIdeal Cert.ReferenceIdeal.Gen Cert.ReferenceIdeal.Read
open Idealize.ShloMosaic Idealize.ShloMosaic.ValueIdx

/-! ## The three words of a group -/

/-- Column `3g + t` of the packed array, for a group `g` and a word `t` of it. -/
abbrev col (g : Fin 128) (t : Nat) (ht : t < 3) : Fin 384 := ⟨3 * g.val + t, by have := g.isLt; omega⟩

/-- Word 0 of group `g` of row `n`. -/
theorem word0 (x1 : (⟨S4096x384, .i32⟩ : BufTy).Contents (Elt Ideal)) (n : Fin 4096) (g : Fin 128) :
    val_main_v3 (F := Ideal) x1 (ix2 n g) = x1 (ix2 n (col g 0 (by omega))) := by
  rw [val_main_v3_apply, val_main_v2_apply, val_main_v1_apply, val_main_v0_apply]
  refine congrArg x1 (funext fun a => Fin.ext ?_)
  have hn := n.isLt
  have hg := g.isLt
  match a with
  | ⟨0, _⟩ =>
    show (((n.val * 128 + g.val) / 128 * 128 + (n.val * 128 + g.val) / 1 % 128) * 3 + 0) / 384 = n.val
    omega
  | ⟨1, _⟩ =>
    show (((n.val * 128 + g.val) / 128 * 128 + (n.val * 128 + g.val) / 1 % 128) * 3 + 0) % 384 = 3 * g.val + 0
    omega

/-- Word 1 of group `g` of row `n`. -/
theorem word1 (x1 : (⟨S4096x384, .i32⟩ : BufTy).Contents (Elt Ideal)) (n : Fin 4096) (g : Fin 128) :
    val_main_v5 (F := Ideal) x1 (ix2 n g) = x1 (ix2 n (col g 1 (by omega))) := by
  rw [val_main_v5_apply, val_main_v4_apply, val_main_v1_apply, val_main_v0_apply]
  refine congrArg x1 (funext fun a => Fin.ext ?_)
  have hn := n.isLt
  have hg := g.isLt
  match a with
  | ⟨0, _⟩ =>
    show (((n.val * 128 + g.val) / 128 * 128 + (n.val * 128 + g.val) / 1 % 128) * 3 + (1 + 0)) / 384 = n.val
    omega
  | ⟨1, _⟩ =>
    show (((n.val * 128 + g.val) / 128 * 128 + (n.val * 128 + g.val) / 1 % 128) * 3 + (1 + 0)) % 384 = 3 * g.val + 1
    omega

/-- Word 2 of group `g` of row `n`. -/
theorem word2 (x1 : (⟨S4096x384, .i32⟩ : BufTy).Contents (Elt Ideal)) (n : Fin 4096) (g : Fin 128) :
    val_main_v7 (F := Ideal) x1 (ix2 n g) = x1 (ix2 n (col g 2 (by omega))) := by
  rw [val_main_v7_apply, val_main_v6_apply, val_main_v1_apply, val_main_v0_apply]
  refine congrArg x1 (funext fun a => Fin.ext ?_)
  have hn := n.isLt
  have hg := g.isLt
  match a with
  | ⟨0, _⟩ =>
    show (((n.val * 128 + g.val) / 128 * 128 + (n.val * 128 + g.val) / 1 % 128) * 3 + (2 + 0)) / 384 = n.val
    omega
  | ⟨1, _⟩ =>
    show (((n.val * 128 + g.val) / 128 * 128 + (n.val * 128 + g.val) / 1 % 128) * 3 + (2 + 0)) % 384 = 3 * g.val + 2
    omega

/-! ## The shift amounts -/

/-- The amount for value `p` of word 0: three times the coordinate. -/
theorem amount0 (n : Fin 4096) (g : Fin 128) (p : Fin 10) :
    val_main_v14 (F := Ideal) (ix3 n g p) = IntOp.muli 3#32 (BitVec.ofNat 32 p.val) := by
  rw [val_main_v14_apply, val_main_v12_apply, val_main_v10_apply, val_main_v9_apply, val_main_c_apply,
    val_main_v8_apply]

/-- The amount for value `p` of word 1: three times the coordinate, plus one. -/
theorem amount1 (n : Fin 4096) (g : Fin 128) (p : Fin 10) :
    val_main_v33 (F := Ideal) (ix3 n g p) = IntOp.addi (IntOp.muli 3#32 (BitVec.ofNat 32 p.val)) 1#32 := by
  rw [val_main_v33_apply, val_main_v31_apply, val_main_v30_apply, val_main_v10_apply, val_main_v9_apply,
    val_main_c_apply, val_main_v8_apply, val_main_v29_apply, val_main_c_5_apply]

/-- The amount for value `p` of word 2: three times the coordinate, plus two. -/
theorem amount2 (n : Fin 4096) (g : Fin 128) (p : Fin 10) :
    val_main_v52 (F := Ideal) (ix3 n g p) = IntOp.addi (IntOp.muli 3#32 (BitVec.ofNat 32 p.val)) 2#32 := by
  rw [val_main_v52_apply, val_main_v50_apply, val_main_v49_apply, val_main_v10_apply, val_main_v9_apply,
    val_main_c_apply, val_main_v8_apply, val_main_v48_apply, val_main_c_11_apply]

/-! ## The five pieces -/

/-- A word spread along the last axis is the word. -/
theorem spread_idx (n : Fin 4096) (g : Fin 128) (p : Fin 10) :
    idx_main_v11 (idx_main_v13 (ix3 n g p)) = ix2 n g := by
  funext a
  match a with
  | ⟨0, _⟩ => rfl
  | ⟨1, _⟩ => rfl

/-- Values 0..9 of a group: the fields of word 0 from bit 0. -/
theorem piece0 (x1 : (⟨S4096x384, .i32⟩ : BufTy).Contents (Elt Ideal)) (n : Fin 4096) (g : Fin 128) (p : Fin 10) :
    val_main_v17 (F := Ideal) x1 (ix3 n g p) = Cert.Unpack.tri (x1 (ix2 n (col g 0 (by omega)))) 0 p := by
  rw [val_main_v17_apply, val_main_v15_apply, val_main_v16_apply, val_main_c_0_apply, amount0, val_main_v13_apply,
    val_main_v11_apply, spread_idx, word0]
  exact Cert.Unpack.andi_shrui_eq_tri .host _ _ 0 p (by omega) (Cert.Unpack.amount_host0 p)

/-- Values 11..20 of a group: the fields of word 1 from bit 1. -/
theorem piece2 (x1 : (⟨S4096x384, .i32⟩ : BufTy).Contents (Elt Ideal)) (n : Fin 4096) (g : Fin 128) (p : Fin 10) :
    val_main_v36 (F := Ideal) x1 (ix3 n g p) = Cert.Unpack.tri (x1 (ix2 n (col g 1 (by omega)))) 1 p := by
  rw [val_main_v36_apply, val_main_v34_apply, val_main_v35_apply, val_main_c_6_apply, amount1, val_main_v32_apply,
    val_main_v28_apply]
  have e : idx_main_v28 (idx_main_v32 (ix3 n g p)) = ix2 n g := spread_idx n g p
  rw [e, word1]
  exact Cert.Unpack.andi_shrui_eq_tri .host _ _ 1 p (by omega) (Cert.Unpack.amount_host1 p)

/-- Values 22..31 of a group: the fields of word 2 from bit 2. -/
theorem piece4 (x1 : (⟨S4096x384, .i32⟩ : BufTy).Contents (Elt Ideal)) (n : Fin 4096) (g : Fin 128) (p : Fin 10) :
    val_main_v55 (F := Ideal) x1 (ix3 n g p) = Cert.Unpack.tri (x1 (ix2 n (col g 2 (by omega)))) 2 p := by
  rw [val_main_v55_apply, val_main_v53_apply, val_main_v54_apply, val_main_c_12_apply, amount2, val_main_v51_apply,
    val_main_v47_apply]
  have e : idx_main_v47 (idx_main_v51 (ix3 n g p)) = ix2 n g := spread_idx n g p
  rw [e, word2]
  exact Cert.Unpack.andi_shrui_eq_tri .host _ _ 2 p (by omega) (Cert.Unpack.amount_host2 p)

/-- Value 10 of a group, before it is given its axis of extent one. -/
theorem mid10_at (x1 : (⟨S4096x384, .i32⟩ : BufTy).Contents (Elt Ideal)) (n : Fin 4096) (g : Fin 128) :
    val_main_v26 (F := Ideal) x1 (ix2 n g)
      = Cert.Unpack.mid10 (x1 (ix2 n (col g 0 (by omega)))) (x1 (ix2 n (col g 1 (by omega)))) := by
  rw [val_main_v26_apply, val_main_v21_apply, val_main_v19_apply, val_main_v18_apply, val_main_c_1_apply,
    val_main_v20_apply, val_main_c_2_apply, val_main_v25_apply, val_main_v23_apply, val_main_v22_apply,
    val_main_c_3_apply, val_main_v24_apply, val_main_c_4_apply, word0, word1]
  exact Cert.Unpack.ori_eq_mid10 .host _ _

/-- Value 21 of a group, before it is given its axis of extent one. -/
theorem mid21_at (x1 : (⟨S4096x384, .i32⟩ : BufTy).Contents (Elt Ideal)) (n : Fin 4096) (g : Fin 128) :
    val_main_v45 (F := Ideal) x1 (ix2 n g)
      = Cert.Unpack.mid21 (x1 (ix2 n (col g 1 (by omega)))) (x1 (ix2 n (col g 2 (by omega)))) := by
  rw [val_main_v45_apply, val_main_v40_apply, val_main_v38_apply, val_main_v37_apply, val_main_c_7_apply,
    val_main_v39_apply, val_main_c_8_apply, val_main_v44_apply, val_main_v42_apply, val_main_v41_apply,
    val_main_c_9_apply, val_main_v43_apply, val_main_c_10_apply, word1, word2]
  exact Cert.Unpack.ori_eq_mid21 .host _ _

/-- Dropping the axis of extent one. -/
theorem unit_idx (n : Fin 4096) (g : Fin 128) (c : Fin 1) : idx_main_v27 (ix3 n g c) = ix2 n g := by
  funext a
  match a with
  | ⟨0, _⟩ => rfl
  | ⟨1, _⟩ => rfl

/-- Value 10 of a group. -/
theorem piece1 (x1 : (⟨S4096x384, .i32⟩ : BufTy).Contents (Elt Ideal)) (n : Fin 4096) (g : Fin 128) (c : Fin 1) :
    val_main_v27 (F := Ideal) x1 (ix3 n g c)
      = Cert.Unpack.mid10 (x1 (ix2 n (col g 0 (by omega)))) (x1 (ix2 n (col g 1 (by omega)))) := by
  rw [val_main_v27_apply, unit_idx, mid10_at]

/-- Value 21 of a group. -/
theorem piece3 (x1 : (⟨S4096x384, .i32⟩ : BufTy).Contents (Elt Ideal)) (n : Fin 4096) (g : Fin 128) (c : Fin 1) :
    val_main_v46 (F := Ideal) x1 (ix3 n g c)
      = Cert.Unpack.mid21 (x1 (ix2 n (col g 1 (by omega)))) (x1 (ix2 n (col g 2 (by omega)))) := by
  rw [val_main_v46_apply]
  have e : idx_main_v46 (ix3 n g c) = ix2 n g := unit_idx n g c
  rw [e, mid21_at]

/-! ## The concatenation -/

/-- Value `j` of group `g` of row `n`, as the reference joins its five pieces. -/
theorem joined_at (x1 : (⟨S4096x384, .i32⟩ : BufTy).Contents (Elt Ideal)) (n : Fin 4096) (g : Fin 128) (j : Fin 32) :
    val_main_v56 (F := Ideal) x1 (ix3 n g j)
      = Cert.Unpack.field (x1 (ix2 n (col g 0 (by omega)))) (x1 (ix2 n (col g 1 (by omega))))
          (x1 (ix2 n (col g 2 (by omega)))) j := by
  have hj := j.isLt
  unfold val_main_v56
  by_cases h0 : j.val < 10
  · -- values 0..9: piece 0
    rw [Cert.Unpack.field_lo _ _ _ j ⟨j.val, h0⟩ rfl, ← piece0 x1 n g ⟨j.val, h0⟩]
    refine concatenate_apply_piece (t := S4096x128x32) (2 : Fin 3) _ _ (ix3 n g j) 0 ?_ S4096x128x10 (val_main_v17 (F := Ideal) x1) ?_ rfl 0 ?_
      (ix3 n g (⟨j.val, h0⟩ : Fin 10)) (fun b hb => ?_) ?_
    · show (0 : Nat) < 5
      omega
    · rfl
    · rfl
    · match b with
      | ⟨0, _⟩ => rfl
      | ⟨1, _⟩ => rfl
      | ⟨2, _⟩ => exact absurd rfl hb
    · show 0 + j.val = j.val
      omega
  by_cases h1 : j.val = 10
  · -- value 10: piece 1
    rw [Cert.Unpack.field_10 _ _ _ j h1, ← piece1 x1 n g 0]
    refine concatenate_apply_piece (t := S4096x128x32) (2 : Fin 3) _ _ (ix3 n g j) 1 ?_ S4096x128x1 (val_main_v27 (F := Ideal) x1) ?_ rfl 10 ?_
      (ix3 n g (0 : Fin 1)) (fun b hb => ?_) ?_
    · show (1 : Nat) < 5
      omega
    · rfl
    · rfl
    · match b with
      | ⟨0, _⟩ => rfl
      | ⟨1, _⟩ => rfl
      | ⟨2, _⟩ => exact absurd rfl hb
    · show 10 + 0 = j.val
      omega
  by_cases h2 : j.val < 21
  · -- values 11..20: piece 2
    have hp : j.val - 11 < 10 := by omega
    rw [Cert.Unpack.field_mid _ _ _ j ⟨j.val - 11, hp⟩ (by show j.val = 11 + (j.val - 11); omega),
      ← piece2 x1 n g ⟨j.val - 11, hp⟩]
    refine concatenate_apply_piece (t := S4096x128x32) (2 : Fin 3) _ _ (ix3 n g j) 2 ?_ S4096x128x10 (val_main_v36 (F := Ideal) x1) ?_ rfl 11 ?_
      (ix3 n g (⟨j.val - 11, hp⟩ : Fin 10)) (fun b hb => ?_) ?_
    · show (2 : Nat) < 5
      omega
    · rfl
    · rfl
    · match b with
      | ⟨0, _⟩ => rfl
      | ⟨1, _⟩ => rfl
      | ⟨2, _⟩ => exact absurd rfl hb
    · show 11 + (j.val - 11) = j.val
      omega
  by_cases h3 : j.val = 21
  · -- value 21: piece 3
    rw [Cert.Unpack.field_21 _ _ _ j h3, ← piece3 x1 n g 0]
    refine concatenate_apply_piece (t := S4096x128x32) (2 : Fin 3) _ _ (ix3 n g j) 3 ?_ S4096x128x1 (val_main_v46 (F := Ideal) x1) ?_ rfl 21 ?_
      (ix3 n g (0 : Fin 1)) (fun b hb => ?_) ?_
    · show (3 : Nat) < 5
      omega
    · rfl
    · rfl
    · match b with
      | ⟨0, _⟩ => rfl
      | ⟨1, _⟩ => rfl
      | ⟨2, _⟩ => exact absurd rfl hb
    · show 21 + 0 = j.val
      omega
  · -- values 22..31: piece 4
    have hp : j.val - 22 < 10 := by omega
    rw [Cert.Unpack.field_hi _ _ _ j ⟨j.val - 22, hp⟩ (by show j.val = 22 + (j.val - 22); omega),
      ← piece4 x1 n g ⟨j.val - 22, hp⟩]
    refine concatenate_apply_piece (t := S4096x128x32) (2 : Fin 3) _ _ (ix3 n g j) 4 ?_ S4096x128x10 (val_main_v55 (F := Ideal) x1) ?_ rfl 22 ?_
      (ix3 n g (⟨j.val - 22, hp⟩ : Fin 10)) (fun b hb => ?_) ?_
    · show (4 : Nat) < 5
      omega
    · rfl
    · rfl
    · match b with
      | ⟨0, _⟩ => rfl
      | ⟨1, _⟩ => rfl
      | ⟨2, _⟩ => exact absurd rfl hb
    · show 22 + (j.val - 22) = j.val
      omega

/-! ## The three statements -/

/-- Entry `(n, k)` of the unpacked matrix is value `k mod 32` of group `k / 32` of row `n`. -/
theorem flat_idx (n k : Fin 4096) :
    idx_main_v57 (ix2 n k)
      = ix3 n (⟨k.val / 32, by have := k.isLt; omega⟩ : Fin 128) (⟨k.val % 32, Nat.mod_lt _ (by decide)⟩ : Fin 32) := by
  have hn := n.isLt
  have hk := k.isLt
  funext a
  refine Fin.ext ?_
  match a with
  | ⟨0, _⟩ =>
    show (n.val * 4096 + k.val) / 4096 = n.val
    omega
  | ⟨1, _⟩ =>
    show (n.val * 4096 + k.val) / 32 % 128 = k.val / 32
    omega
  | ⟨2, _⟩ =>
    show (n.val * 4096 + k.val) % 32 = k.val % 32
    omega

/-- The reference's unpacked integer at `(n, k)` is the stored value `k mod 32` of group `k / 32` of row `n`. -/
theorem unpacked_at (x1 : (⟨S4096x384, .i32⟩ : BufTy).Contents (Elt Ideal)) (n k : Fin 4096) :
    val_main_v58 (F := Ideal) x1 (ix2 n k) = Cert.Spec.intWeight x1 n k := by
  rw [val_main_v58_apply, val_main_v57_apply, flat_idx, joined_at]
  rfl

/-- The scale and the zero point of row `n` are read at `(n, 0)`. -/
theorem row_idx (n k : Fin 4096) : idx_main_v60 (ix2 n k) = ix2 n (0 : Fin 1) := by
  funext a
  match a with
  | ⟨0, _⟩ => rfl
  | ⟨1, _⟩ => rfl

/-- The reference's dequantised weight at `(n, k)`. -/
theorem weight_at (x1 : (⟨S4096x384, .i32⟩ : BufTy).Contents (Elt Ideal))
    (x2 x3 : (⟨S4096x1, .f32⟩ : BufTy).Contents (Elt Ideal)) (n k : Fin 4096) :
    val_main_v63 (F := Ideal) x1 x2 x3 (ix2 n k) = Cert.Spec.weight x1 x2 x3 n k := by
  rw [val_main_v63_apply, val_main_v61_apply, val_main_v59_apply, val_main_v60_apply, val_main_v62_apply,
    unpacked_at]
  have e : idx_main_v62 (ix2 n k) = ix2 n (0 : Fin 1) := row_idx n k
  rw [e, row_idx]
  rfl

/-- The reference's result is the specification's function of the arguments. -/
theorem result_eq (x0 : (⟨S2048x4096, .f32⟩ : BufTy).Contents (Elt Ideal))
    (x1 : (⟨S4096x384, .i32⟩ : BufTy).Contents (Elt Ideal))
    (x2 x3 : (⟨S4096x1, .f32⟩ : BufTy).Contents (Elt Ideal)) (x4 : (⟨S4096, .f32⟩ : BufTy).Contents (Elt Ideal)) :
    val_main_v67 (F := Ideal) x0 x1 x2 x3 x4 = Cert.Spec.out x0 x1 x2 x3 x4 := by
  funext i
  obtain ⟨r, n, rfl⟩ : ∃ (r : Fin 2048) (n : Fin 4096), i = ix2 r n := ⟨i 0, i 1, eq_ix2 i⟩
  rw [val_main_v67_apply, val_main_v64_apply, val_main_v66_apply, val_main_v65_apply, Cert.Spec.out_ix2]
  unfold Cert.Spec.outAt
  have el : ∀ k : Fin 4096, lidx_main_v64 (ix2 r n) k = ix2 r k := fun k => by
    funext a
    match a with
    | ⟨0, _⟩ => rfl
    | ⟨1, _⟩ => rfl
  have er : ∀ k : Fin 4096, ridx_main_v64 (ix2 r n) k = ix2 n k := fun k => by
    funext a
    match a with
    | ⟨0, _⟩ => rfl
    | ⟨1, _⟩ => rfl
  have eb : idx_main_v65 (idx_main_v66 (ix2 r n)) = ix1 n := by
    funext a
    match a with
    | ⟨0, _⟩ => rfl
  rw [eb]
  refine congrArg₂ (· + ·) (Finset.sum_congr rfl fun k _ => ?_) rfl
  rw [el, er, weight_at]

end Cert.ReferenceIdeal.RefValue

end
-- ==== Proof.lean ====
/-
  A linear layer over three-bit quantised weights: out = x · Wᵀ + b, where row n of W is stored as 128 groups of three
  32-bit words, each group holding 32 three-bit integers, and is dequantised as integer · scale(n) − zero(n).

  The kernel works on the packed array transposed, one block of 256 output columns per grid point; inside a point it
  splits the 4096 contracted coordinates into four quarters of 1024, unpacks and dequantises the quarter's 1024×256
  weight tile and adds the quarter's matrix product to an accumulator that starts at zero, then adds the bias row.
  The reference unpacks the whole 4096×4096 integer matrix, dequantises it and takes one matrix product with x.

  At the ideal values both are the same function of the arguments, entry by entry:
      out(r, n) = Σ_{k < 4096} x(r, k) · (W(n, k) · s(n) − z(n)) + b(n),
  with W(n, k) the stored three-bit field k mod 32 of group k / 32 of row n. The integer side is bit arithmetic that the
  two programs spell the same way up to the layout of the groups (every shift amount is below 32, where the kernel's and
  the host's shifts are the plain logical shift); a change of float format is the identity; and the four quarters
  accumulated from zero are the whole sum because addition of extended reals is commutative and associative. No
  property of the inputs is used: the precondition is not opened.

  The three frames are the generated ones (the reference's is its generated run with the result dropped); the idealised
  kernel is the kernel's own text read at the ideal values, so there is nothing to preserve.
-/
import proofs.«425514_j83064667505244_3_alg».proof.Defs
import proofs.«425514_j83064667505244_3_alg».proof.Proof.Gen.Kernel
import proofs.«425514_j83064667505244_3_alg».proof.Proof.Gen.Kernel.Skeleton
import proofs.«425514_j83064667505244_3_alg».proof.Proof.Gen.Kernel.Launch
import proofs.«425514_j83064667505244_3_alg».proof.Proof.Gen.Kernel.Points
import proofs.«425514_j83064667505244_3_alg».proof.Proof.Gen.Kernel.Frame
import proofs.«425514_j83064667505244_3_alg».proof.Proof.Gen.KernelIdeal
import proofs.«425514_j83064667505244_3_alg».proof.Proof.Gen.KernelIdeal.Skeleton
import proofs.«425514_j83064667505244_3_alg».proof.Proof.Gen.KernelIdeal.Launch
import proofs.«425514_j83064667505244_3_alg».proof.Proof.Gen.KernelIdeal.Points
import proofs.«425514_j83064667505244_3_alg».proof.Proof.Gen.KernelIdeal.Frame
import proofs.«425514_j83064667505244_3_alg».proof.Proof.Gen.ReferenceIdeal
import proofs.«425514_j83064667505244_3_alg».proof.Proof.Gen.Pre_finite_inputs
import proofs.«425514_j83064667505244_3_alg».proof.Proof.Gen.KernelIdeal.Value
import proofs.«425514_j83064667505244_3_alg».proof.Proof.Gen.ReferenceIdeal.Run
import proofs.«425514_j83064667505244_3_alg».proof.Proof.Gen.ReferenceIdeal.Read
import proofs.«425514_j83064667505244_3_alg».proof.Proof.KValue
import proofs.«425514_j83064667505244_3_alg».proof.Proof.RefValue
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the specification's function of the arguments they agree on. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq, Cert.ReferenceIdeal.RefValue.result_eq,
    (hagree c).1, (hagree c).2.1, (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
